-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S3200000 : Shape := ⟨1, ![3200000]⟩
abbrev S3200000x2 : Shape := ⟨2, ![3200000, 2]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S3200000x2 : S_.BroadcastsInDim S3200000x2 (![] : Fin 0 → Fin S3200000x2.rank)
  reducesTo_S3200000x2_S_d0_1 : S3200000x2.ReducesTo [0, 1] S_
  bcast_S_S2x3200000 : S_.BroadcastsInDim S2x3200000 (![] : Fin 0 → Fin S2x3200000.rank)
  reducesTo_S2x3200000_S_d0_1 : S2x3200000.ReducesTo [0, 1] S_

variable [Facts]

def fn_part1 {F : FTy → Type} [FloatOps F] (main_arg1 : IVec S2x3200000 32) (main_v13 : IVec S_ 1) (main_v15 : IVec S2x3200000 1) (main_c_5 : IVec S_ 32) : IVec S_ 1 :=
  let main_v16 : IVec S2x3200000 32 := broadcastInDim S2x3200000 ![] bcast_S_S2x3200000 main_c_5
  let main_v17 : IVec S2x3200000 1 := cmpi .slt main_arg1 main_v16
  let main_v18 : IVec S2x3200000 1 := andi main_v15 main_v17
  let main_c_6 : IVec S_ 1 := constantI S_ 1 1#1
  let main_v19 : IVec S_ 1 := (fun x v => Host.reduce IntOp.andi x v reducesTo_S2x3200000_S_d0_1 h_S_) main_v18 main_c_6
  let main_v20 : IVec S_ 1 := andi main_v13 main_v19
  main_v20

def fn {F : FTy → Type} [FloatOps F] (main_arg0 : FVec F S100000x4 .f32) (main_arg1 : IVec S2x3200000 32) (main_arg2 : FVec F S3200000 .f32) (main_arg3 : FVec F S3200000x2 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S3200000x2 .f32 := Host.absf main_arg3
  let main_cst_2 : FVec F S_ .f32 := constant S_ .f32 0x7F800000#32
  let main_v10 : FVec F S3200000x2 .f32 := broadcastInDim S3200000x2 ![] bcast_S_S3200000x2 main_cst_2
  let main_v11 : IVec S3200000x2 1 := cmpf .olt main_v9 main_v10
  let main_c_3 : IVec S_ 1 := constantI S_ 1 1#1
  let main_v12 : IVec S_ 1 := (fun x v => Host.reduce IntOp.andi x v reducesTo_S3200000x2_S_d0_1 h_S_) main_v11 main_c_3
  let main_v13 : IVec S_ 1 := andi main_v8 main_v12
  let main_c_4 : IVec S_ 32 := constantI S_ 32 0#32
  let main_v14 : IVec S2x3200000 32 := broadcastInDim S2x3200000 ![] bcast_S_S2x3200000 main_c_4
  let main_v15 : IVec S2x3200000 1 := cmpi .sge main_arg1 main_v14
  let main_c_5 : IVec S_ 32 := constantI S_ 32 100000#32
  fn_part1 (F := F) main_arg1 main_v13 main_v15 main_c_5
-- ==== Kernel.lean ====
abbrev S100000x4 : Shape := ⟨2, ![100000, 4]⟩
abbrev S2x3200000 : Shape := ⟨2, ![2, 3200000]⟩
abbrev S3200000 : Shape := ⟨1, ![3200000]⟩
abbrev S3200000x2 : Shape := ⟨2, ![3200000, 2]⟩
abbrev S100000x1 : Shape := ⟨2, ![100000, 1]⟩
abbrev S100000 : Shape := ⟨1, ![100000]⟩
abbrev S1x3200000 : Shape := ⟨2, ![1, 3200000]⟩
abbrev S_ : Shape := ⟨0, ![]⟩
abbrev S3200000x1 : Shape := ⟨2, ![3200000, 1]⟩
abbrev S1 : Shape := ⟨1, ![1]⟩
abbrev S1x1 : Shape := ⟨2, ![1, 1]⟩
abbrev S25000x128 : Shape := ⟨2, ![25000, 128]⟩
abbrev S5x8x128 : Shape := ⟨3, ![5, 8, 128]⟩
abbrev S5000x128 : Shape := ⟨2, ![5000, 128]⟩
abbrev S1x8x128 : Shape := ⟨3, ![1, 8, 128]⟩
abbrev S1x5000x128 : Shape := ⟨3, ![1, 5000, 128]⟩
abbrev S1x1x1 : Shape := ⟨3, ![1, 1, 1]⟩
abbrev S6400000 : Shape := ⟨1, ![6400000]⟩
abbrev S6400000x1 : Shape := ⟨2, ![6400000, 1]⟩

abbrev nBuf : Space → Nat
  | .hbm => 129
  | .vmem => 20
  | .smem => 0
  | _ => 0

abbrev hbmTy0_0 (i : Nat) : BufTy := match i % 128 with
  | 0 => ⟨S100000x4, .f32⟩
  | 1 => ⟨S2x3200000, .i32⟩
  | 2 => ⟨S3200000, .f32⟩
  | 3 => ⟨S3200000x2, .f32⟩
  | 4 => ⟨S100000x1, .f32⟩
  | 5 => ⟨S100000, .f32⟩
  | 6 => ⟨S1x3200000, .i32⟩
  | 7 => ⟨S3200000, .i32⟩
  | 8 => ⟨S1x3200000, .i32⟩
  | 9 => ⟨S3200000, .i32⟩
  | 10 => ⟨S_, .i32⟩
  | 11 => ⟨S3200000, .i32⟩
  | 12 => ⟨S3200000, .i1⟩
  | 13 => ⟨S_, .i32⟩
  | 14 => ⟨S3200000, .i32⟩
  | 15 => ⟨S3200000, .i32⟩
  | 16 => ⟨S3200000, .i32⟩
  | 17 => ⟨S3200000x1, .i32⟩
  | 18 => ⟨S1, .i32⟩
  | 19 => ⟨S_, .i32⟩
  | 20 => ⟨S3200000x1, .i32⟩
  | 21 => ⟨S3200000x1, .i1⟩
  | 22 => ⟨S1x1, .i32⟩
  | 23 => ⟨S3200000x1, .i32⟩
  | 24 => ⟨S3200000x1, .i1⟩
  | 25 => ⟨S3200000x1, .i1⟩
  | 26 => ⟨S_, .i1⟩
  | 27 => ⟨S3200000, .i1⟩
  | 28 => ⟨S3200000, .f32⟩
  | 29 => ⟨S_, .f32⟩
  | 30 => ⟨S3200000, .f32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S1, .i32⟩
  | 41 => ⟨S_, .i32⟩
  | 42 => ⟨S3200000x1, .i32⟩
  | 43 => ⟨S3200000x1, .i1⟩
  | 44 => ⟨S1x1, .i32⟩
  | 45 => ⟨S3200000x1, .i32⟩
  | 46 => ⟨S3200000x1, .i1⟩
  | 47 => ⟨S3200000x1, .i1⟩
  | 48 => ⟨S_, .i1⟩
  | 49 => ⟨S3200000, .i1⟩
  | 50 => ⟨S3200000, .f32⟩
  | 51 => ⟨S_, .f32⟩
  | 52 => ⟨S3200000, .f32⟩
  | 53 => ⟨S3200000, .f32⟩
  | 54 => ⟨S3200000x1, .f32⟩
  | 55 => ⟨S3200000, .f32⟩
  | 56 => ⟨S3200000x1, .f32⟩
  | 57 => ⟨S3200000, .f32⟩
  | 58 => ⟨S25000x128, .f32⟩
  | 59 => ⟨S25000x128, .f32⟩
  | 60 => ⟨S25000x128, .f32⟩
  | 61 => ⟨S25000x128, .f32⟩
  | 62 => ⟨S25000x128, .f32⟩
  | 63 => ⟨S25000x128, .f32⟩
  | 64 => ⟨S5x8x128, .f32⟩
  | 65 => ⟨S5x8x128, .f32⟩
  | 66 => ⟨S5x8x128, .f32⟩
  | 67 => ⟨S5x8x128, .f32⟩
  | 68 => ⟨S3200000, .f32⟩
  | 69 => ⟨S3200000, .f32⟩
  | 70 => ⟨S6400000, .f32⟩
  | 71 => ⟨S6400000, .i32⟩
  | 72 => ⟨S_, .f32⟩
  | 73 => ⟨S100000, .f32⟩
  | 74 => ⟨S6400000x1, .i32⟩
  | 75 => ⟨S100000, .f32⟩
  | 76 => ⟨S100000, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S100000x4, .f32⟩

abbrev hbmTy0_1 (i : Nat) : BufTy := match i % 128 with
  | 0 => ⟨S_, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x8x128, .f32⟩
  | .local _ .vmem, ⟨13, _⟩ => ⟨S1x8x128, .f32⟩
  | .local _ .vmem, ⟨14, _⟩ => ⟨S1x8x128, .f32⟩
  | .local _ .vmem, ⟨15, _⟩ => ⟨S1x8x128, .f32⟩
  | .local _ .vmem, ⟨16, _⟩ => ⟨S1x8x128, .f32⟩
  | .local _ .vmem, ⟨17, _⟩ => ⟨S1x8x128, .f32⟩
  | .local _ .vmem, ⟨18, _⟩ => ⟨S1x8x128, .f32⟩
  | .local _ .vmem, ⟨19, _⟩ => ⟨S1x8x128, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v6 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_cst : Ref sig .tc := ⟨.hbm, 51, rfl⟩
abbrev main_call1_v14 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17_0 : Ref sig .tc := ⟨.hbm, 63, rfl⟩
abbrev main_v17_1 : Ref sig .tc := ⟨.hbm, 64, rfl⟩
abbrev main_v17_2 : Ref sig .tc := ⟨.hbm, 65, rfl⟩
abbrev main_v17_3 : Ref sig .tc := ⟨.hbm, 66, rfl⟩
abbrev main_v17_4 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_cst : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_cst_0 : Ref sig .tc := ⟨.hbm, 77, rfl⟩
abbrev main_v26 : Ref sig .tc := ⟨.hbm, 78, rfl⟩
abbrev main_cst_1 : Ref sig .tc := ⟨.hbm, 79, rfl⟩
abbrev main_v27 : Ref sig .tc := ⟨.hbm, 80, rfl⟩
abbrev main_cst_2 : Ref sig .tc := ⟨.hbm, 81, rfl⟩
abbrev main_v28 : Ref sig .tc := ⟨.hbm, 82, rfl⟩
abbrev main_cst_3 : Ref sig .tc := ⟨.hbm, 83, rfl⟩
abbrev main_v29 : Ref sig .tc := ⟨.hbm, 84, rfl⟩
abbrev main_cst_4 : Ref sig .tc := ⟨.hbm, 85, rfl⟩
abbrev main_v30 : Ref sig .tc := ⟨.hbm, 86, rfl⟩
abbrev main_cst_5 : Ref sig .tc := ⟨.hbm, 87, rfl⟩
abbrev main_v31 : Ref sig .tc := ⟨.hbm, 88, rfl⟩
abbrev main_cst_6 : Ref sig .tc := ⟨.hbm, 89, rfl⟩
abbrev main_v32 : Ref sig .tc := ⟨.hbm, 90, rfl⟩
abbrev main_cst_7 : Ref sig .tc := ⟨.hbm, 91, rfl⟩
abbrev main_v33 : Ref sig .tc := ⟨.hbm, 92, rfl⟩
abbrev main_cst_8 : Ref sig .tc := ⟨.hbm, 93, rfl⟩
abbrev main_v34 : Ref sig .tc := ⟨.hbm, 94, rfl⟩
abbrev main_cst_9 : Ref sig .tc := ⟨.hbm, 95, rfl⟩
abbrev main_v35 : Ref sig .tc := ⟨.hbm, 96, rfl⟩
abbrev main_cst_10 : Ref sig .tc := ⟨.hbm, 97, rfl⟩
abbrev main_v36 : Ref sig .tc := ⟨.hbm, 98, rfl⟩
abbrev main_cst_11 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_cst_12 : Ref sig .tc := ⟨.hbm, 103, rfl⟩
abbrev main_cst_13 : Ref sig .tc := ⟨.hbm, 104, rfl⟩
abbrev main_v40 : Ref sig .tc := ⟨.hbm, 105, rfl⟩
abbrev main_cst_14 : Ref sig .tc := ⟨.hbm, 106, rfl⟩
abbrev main_v41 : Ref sig .tc := ⟨.hbm, 107, rfl⟩
abbrev main_v42 : Ref sig .tc := ⟨.hbm, 108, rfl⟩
abbrev main_cst_15 : Ref sig .tc := ⟨.hbm, 109, rfl⟩
abbrev main_v43 : Ref sig .tc := ⟨.hbm, 110, rfl⟩
abbrev main_cst_16 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_cst_17 : Ref sig .tc := ⟨.hbm, 115, rfl⟩
abbrev main_cst_18 : Ref sig .tc := ⟨.hbm, 116, rfl⟩
abbrev main_v47 : Ref sig .tc := ⟨.hbm, 117, rfl⟩
abbrev main_cst_19 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_cst_20 : Ref sig .tc := ⟨.hbm, 122, rfl⟩
abbrev main_v51 : Ref sig .tc := ⟨.hbm, 123, rfl⟩
abbrev main_cst_21 : Ref sig .tc := ⟨.hbm, 124, rfl⟩
abbrev main_v52 : Ref sig .tc := ⟨.hbm, 125, rfl⟩
abbrev main_cst_22 : Ref sig .tc := ⟨.hbm, 126, rfl⟩
abbrev main_v53 : Ref sig .tc := ⟨.hbm, 127, rfl⟩
abbrev main_v54 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S100000x4_S100000x1_0_0 : S100000x4.Slices ![0, 0] S100000x1
  shapeCasts_S100000x1_S100000 : S100000x1.ShapeCasts S100000
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  shapeCasts_S3200000_S25000x128 : S3200000.ShapeCasts S25000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S5000x128_S1x5000x128 : S5000x128.ShapeCasts S1x5000x128
  reduces_S1x5000x128_S1 : S1x5000x128.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  shapeCasts_S25000x128_S3200000 : S25000x128.ShapeCasts S3200000
  concatenates_S3200000_S3200000_S6400000_d0 : Shape.Concatenates [S3200000, S3200000] S6400000 0
  bcast_S_S100000 : S_.BroadcastsInDim S100000 (![] : Fin 0 → Fin S100000.rank)
  bcast_S6400000_S6400000x1_0 : S6400000.BroadcastsInDim S6400000x1 (![0] : Fin 1 → Fin S6400000x1.rank)
  reducesTo_S100000_S_d0 : S100000.ReducesTo [0] S_
  reducesTo_S5x8x128_S_d0_1_2 : S5x8x128.ReducesTo [0, 1, 2] S_
  gather_S100000_S3200000x1_S3200000_n_0_n_n_0_1_1_wf : GatherDims.WF S100000 S3200000x1 S3200000 [] [0] [] [0] [] 1 ![1]
  scatter_S100000_S6400000x1_S6400000_n_0_0_1_wf : ScatterDims.WF S100000 S6400000x1 S6400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S25000x128.size a
  hwx0_0 : ∀ i : grid0.Coords, EltTy.bits .f32 = 32 ∨ (Rect.block (s := S25000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S25000x128.size a
  hwx0_1 : ∀ i : grid0.Coords, EltTy.bits .f32 = 32 ∨ (Rect.block (s := S25000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S25000x128.size a
  hwx0_2 : ∀ i : grid0.Coords, EltTy.bits .f32 = 32 ∨ (Rect.block (s := S25000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S25000x128.size a
  hwx0_3 : ∀ i : grid0.Coords, EltTy.bits .f32 = 32 ∨ (Rect.block (s := S25000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S25000x128.size a
  hwx0_4 : ∀ i : grid0.Coords, EltTy.bits .f32 = 32 ∨ (Rect.block (s := S25000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S25000x128.size a
  hwx0_5 : ∀ i : grid0.Coords, EltTy.bits .f32 = 32 ∨ (Rect.block (s := S25000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S5x8x128.size a
  hwx0_6 : ∀ i : grid0.Coords, EltTy.bits .f32 = 32 ∨ (Rect.block (s := S5x8x128) S1x8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x8x128.size a ≤ S5x8x128.size a
  hwx0_7 : ∀ i : grid0.Coords, EltTy.bits .f32 = 32 ∨ (Rect.block (s := S5x8x128) S1x8x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x128.size a ≤ S5x8x128.size a
  hwx0_8 : ∀ i : grid0.Coords, EltTy.bits .f32 = 32 ∨ (Rect.block (s := S5x8x128) S1x8x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x8x128.size a ≤ S5x8x128.size a
  hwx0_9 : ∀ i : grid0.Coords, EltTy.bits .f32 = 32 ∨ (Rect.block (s := S5x8x128) S1x8x128.size (cc0_transform_9 i) (hinb0_9 i)).WholeWords (EltTy.packing .f32)

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S1x8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v17_2) S1x8x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v17_3) S1x8x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v17_4) S1x8x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x4 : Shape := ⟨2, ![100000, 4]⟩
abbrev S2x3200000 : Shape := ⟨2, ![2, 3200000]⟩
abbrev S3200000 : Shape := ⟨1, ![3200000]⟩
abbrev S3200000x2 : Shape := ⟨2, ![3200000, 2]⟩
abbrev S_ : Shape := ⟨0, ![]⟩
abbrev S1x3200000 : Shape := ⟨2, ![1, 3200000]⟩
abbrev S100000x1 : Shape := ⟨2, ![100000, 1]⟩
abbrev S100000 : Shape := ⟨1, ![100000]⟩
abbrev S3200000x1 : Shape := ⟨2, ![3200000, 1]⟩
abbrev S2 : Shape := ⟨1, ![2]⟩
abbrev S1x2 : Shape := ⟨2, ![1, 2]⟩

abbrev nBuf : Space → Nat
  | .hbm => 94
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S2x3200000, .i32⟩
  | .hbm, ⟨2, _⟩ => ⟨S3200000, .f32⟩
  | .hbm, ⟨3, _⟩ => ⟨S3200000x2, .f32⟩
  | .hbm, ⟨4, _⟩ => ⟨S3200000, .f32⟩
  | .hbm, ⟨5, _⟩ => ⟨S3200000, .f32⟩
  | .hbm, ⟨6, _⟩ => ⟨S_, .f32⟩
  | .hbm, ⟨7, _⟩ => ⟨S3200000, .f32⟩
  | .hbm, ⟨8, _⟩ => ⟨S3200000, .f32⟩
  | .hbm, ⟨9, _⟩ => ⟨S_, .f32⟩
  | .hbm, ⟨10, _⟩ => ⟨S3200000, .f32⟩
  | .hbm, ⟨11, _⟩ => ⟨S3200000, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S100000x1, .f32⟩
  | .hbm, ⟨17, _⟩ => ⟨S100000, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S3200000, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000, .f32⟩
  | .hbm, ⟨36, _⟩ => ⟨S3200000, .f32⟩
  | .hbm, ⟨37, _⟩ => ⟨S3200000, .f32⟩
  | .hbm, ⟨38, _⟩ => ⟨S3200000x1, .f32⟩
  | .hbm, ⟨39, _⟩ => ⟨S3200000, .f32⟩
  | .hbm, ⟨40, _⟩ => ⟨S3200000x1, .f32⟩
  | .hbm, ⟨41, _⟩ => ⟨S3200000, .f32⟩
  | .hbm, ⟨42, _⟩ => ⟨S3200000, .f32⟩
  | .hbm, ⟨43, _⟩ => ⟨S_, .f32⟩
  | .hbm, ⟨44, _⟩ => ⟨S3200000, .f32⟩
  | .hbm, ⟨45, _⟩ => ⟨S3200000, .f32⟩
  | .hbm, ⟨46, _⟩ => ⟨S3200000, .f32⟩
  | .hbm, ⟨47, _⟩ => ⟨S3200000, .f32⟩
  | .hbm, ⟨48, _⟩ => ⟨S_, .f32⟩
  | .hbm, ⟨49, _⟩ => ⟨S100000, .f32⟩
  | .hbm, ⟨50, _⟩ => ⟨S3200000x1, .i32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S3200000x1, .i32⟩
  | .hbm, ⟨55, _⟩ => ⟨S100000, .f32⟩
  | .hbm, ⟨56, _⟩ => ⟨S100000, .f32⟩
  | .hbm, ⟨57, _⟩ => ⟨S100000, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .i32⟩
  | .hbm, ⟨63, _⟩ => ⟨S_, .f32⟩
  | .hbm, ⟨64, _⟩ => ⟨S2, .f32⟩
  | .hbm, ⟨65, _⟩ => ⟨S1x2, .f32⟩
  | .hbm, ⟨66, _⟩ => ⟨S_, .f32⟩
  | .hbm, ⟨67, _⟩ => ⟨S1x2, .f32⟩
  | .hbm, ⟨68, _⟩ => ⟨S1x2, .f32⟩
  | .hbm, ⟨69, _⟩ => ⟨S3200000x2, .f32⟩
  | .hbm, ⟨70, _⟩ => ⟨S3200000x2, .f32⟩
  | .hbm, ⟨71, _⟩ => ⟨S3200000x2, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S2, .f32⟩
  | .hbm, ⟨77, _⟩ => ⟨S2, .f32⟩
  | .hbm, ⟨78, _⟩ => ⟨S2, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S2, .f32⟩
  | .hbm, ⟨84, _⟩ => ⟨S2, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_c_9 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_cst_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_v6 : Ref sig .tc := ⟨.hbm, 71, rfl⟩
abbrev main_call0_v7 : Ref sig .tc := ⟨.hbm, 72, rfl⟩
abbrev main_call0_cst_1 : Ref sig .tc := ⟨.hbm, 73, rfl⟩
abbrev main_call0_v8 : Ref sig .tc := ⟨.hbm, 74, rfl⟩
abbrev main_call0_cst_2 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_cst_3 : Ref sig .tc := ⟨.hbm, 79, rfl⟩
abbrev main_call0_v12 : Ref sig .tc := ⟨.hbm, 80, rfl⟩
abbrev main_call0_cst_4 : Ref sig .tc := ⟨.hbm, 81, rfl⟩
abbrev main_call0_call0_v0 : Ref sig .tc := ⟨.hbm, 82, rfl⟩
abbrev main_call0_call0_v1 : Ref sig .tc := ⟨.hbm, 83, rfl⟩
abbrev main_v47 : Ref sig .tc := ⟨.hbm, 84, rfl⟩
abbrev main_cst_10 : Ref sig .tc := ⟨.hbm, 85, rfl⟩
abbrev main_v48 : Ref sig .tc := ⟨.hbm, 86, rfl⟩
abbrev main_cst_11 : Ref sig .tc := ⟨.hbm, 87, rfl⟩
abbrev main_v49 : Ref sig .tc := ⟨.hbm, 88, rfl⟩
abbrev main_cst_12 : Ref sig .tc := ⟨.hbm, 89, rfl⟩
abbrev main_v50 : Ref sig .tc := ⟨.hbm, 90, rfl⟩
abbrev main_cst_13 : Ref sig .tc := ⟨.hbm, 91, rfl⟩
abbrev main_v51 : Ref sig .tc := ⟨.hbm, 92, rfl⟩
abbrev main_v52 : Ref sig .tc := ⟨.hbm, 93, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  slices_S100000x4_S100000x1_0_0 : S100000x4.Slices ![0, 0] S100000x1
  shapeCasts_S100000x1_S100000 : S100000x1.ShapeCasts S100000
  bcast_S3200000_S3200000x1_0 : S3200000.BroadcastsInDim S3200000x1 (![0] : Fin 1 → Fin S3200000x1.rank)
  slices_S3200000x2_S3200000x1_0_0 : S3200000x2.Slices ![0, 0] S3200000x1
  shapeCasts_S3200000x1_S3200000 : S3200000x1.ShapeCasts S3200000
  slices_S3200000x2_S3200000x1_0_1 : S3200000x2.Slices ![0, 1] S3200000x1
  bcast_S_S100000 : S_.BroadcastsInDim S100000 (![] : Fin 0 → Fin S100000.rank)
  reducesTo_S100000_S_d0 : S100000.ReducesTo [0] S_
  h_S_ : 0 < S_.numel
  reducesTo_S3200000x2_S2_d0 : S3200000x2.ReducesTo [0] S2
  bcast_S2_S1x2_1 : S2.BroadcastsInDim S1x2 (![1] : Fin 1 → Fin S1x2.rank)
  bcast_S_S1x2 : S_.BroadcastsInDim S1x2 (![] : Fin 0 → Fin S1x2.rank)
  bcast_S1x2_S3200000x2_0_1 : S1x2.BroadcastsInDim S3200000x2 (![0, 1] : Fin 2 → Fin S3200000x2.rank)
  bcast_S_S2 : S_.BroadcastsInDim S2 (![] : Fin 0 → Fin S2.rank)
  reducesTo_S2_S_d0 : S2.ReducesTo [0] S_
  gather_S100000_S3200000x1_S3200000_n_0_n_n_0_1_1_wf : GatherDims.WF S100000 S3200000x1 S3200000 [] [0] [] [0] [] 1 ![1]
  scatter_S100000_S3200000x1_S3200000_n_0_0_1_wf : ScatterDims.WF S100000 S3200000x1 S3200000 [] [0] [0] 1

variable [Facts₀]

def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.Spec.lean ====
/-
  The two programs as functions of their four argument arrays, stage by stage, in the library's own operations.

  Arguments: node features [100000, 4] (only column 0, the node voltage v, is read), edge endpoints [2, 3200000]
  (row 0 the source node, row 1 the destination node of each edge), edge logits [3200000], edge parameters
  [3200000, 2] (column 0 the resistance R, column 1 the reactance X).

  Both programs compute, per edge e, the current
      cur e = |v[src e] - v[dst e]| / ((R e + X e) + eps) * 1 / (1 + exp (-logit e)),
  then per node n the net current  (sum of cur over edges into n) - (sum of cur over edges out of n),
  the mean over nodes of its square, and the mean over the two columns of the unbiased variance of the edge
  parameters; the result is the sum of the two means.

  The reference gathers, computes and scatters on flat length-3200000 vectors, subtracts two scatter sums, and takes the
  variance as  sum (x - mean)^2 / (n - 1).  The kernel gathers with an out-of-range guard, lays the five per-edge
  vectors out as [25000, 128], computes the current tile by tile (five tiles of 5000 rows) together with the per-tile
  sums of R, R^2, X, X^2, scatters the concatenation of cur and -cur at the concatenation of destination and source
  nodes in ONE scatter sum, and takes the variance as  (sum x^2 / n - mean^2) * n / (n - 1).
-/
import Idealize.ShloMosaic.Lib.StableHlo
import Idealize.ShloMosaic.Lib.ValueIdx
import Idealize.ShloMosaic.PureOps
import Idealize.ShloMosaic.PureOps.Ideal

noncomputable section

namespace Cert.Spec

open Idealize.ShloMosaic Idealize.ShloMosaic.ValueIdx

/-! ## Shapes -/

abbrev TN4 : Shape := ⟨2, ![100000, 4]⟩
abbrev TI : Shape := ⟨2, ![2, 3200000]⟩
abbrev TE : Shape := ⟨1, ![3200000]⟩
abbrev TE2 : Shape := ⟨2, ![3200000, 2]⟩
abbrev T0 : Shape := ⟨0, ![]⟩
abbrev T1E : Shape := ⟨2, ![1, 3200000]⟩
abbrev TN1 : Shape := ⟨2, ![100000, 1]⟩
abbrev TN : Shape := ⟨1, ![100000]⟩
abbrev TE1 : Shape := ⟨2, ![3200000, 1]⟩
abbrev T1 : Shape := ⟨1, ![1]⟩
abbrev T11 : Shape := ⟨2, ![1, 1]⟩
abbrev T2 : Shape := ⟨1, ![2]⟩
abbrev T12 : Shape := ⟨2, ![1, 2]⟩
abbrev TRL : Shape := ⟨2, ![25000, 128]⟩
abbrev TB : Shape := ⟨2, ![5000, 128]⟩
abbrev TD : Shape := ⟨1, ![6400000]⟩
abbrev TD1 : Shape := ⟨2, ![6400000, 1]⟩
abbrev TS : Shape := ⟨3, ![5, 8, 128]⟩

/-! ## The shape relations the operations take -/

theorem e_slN : TN4.Slices ![0, 0] TN1 := by decide
theorem e_cN : TN1.ShapeCasts TN := by decide
theorem e_slI0 : TI.Slices ![0, 0] T1E := by decide
theorem e_slI1 : TI.Slices ![1, 0] T1E := by decide
theorem e_cI : T1E.ShapeCasts TE := by decide
theorem e_b0E : T0.BroadcastsInDim TE (![] : Fin 0 → Fin TE.rank) := by decide
theorem e_bE1 : TE.BroadcastsInDim TE1 (![0] : Fin 1 → Fin TE1.rank) := by decide
theorem e_b0E1 : T0.BroadcastsInDim TE1 (![] : Fin 0 → Fin TE1.rank) := by decide
theorem e_b1_11 : T1.BroadcastsInDim T11 (![1] : Fin 1 → Fin T11.rank) := by decide
theorem e_b11_E1 : T11.BroadcastsInDim TE1 (![0, 1] : Fin 2 → Fin TE1.rank) := by decide
theorem e_rE1 : TE1.ReducesTo [1] TE := by decide
theorem e_h0 : 0 < T0.numel := by decide
theorem e_slP0 : TE2.Slices ![0, 0] TE1 := by decide
theorem e_slP1 : TE2.Slices ![0, 1] TE1 := by decide
theorem e_cP : TE1.ShapeCasts TE := by decide
theorem e_c2d : TE.ShapeCasts TRL := by decide
theorem e_c1d : TRL.ShapeCasts TE := by decide
theorem e_cat : Shape.Concatenates [TE, TE] TD 0 := by decide
theorem e_b0N : T0.BroadcastsInDim TN (![] : Fin 0 → Fin TN.rank) := by decide
theorem e_bD1 : TD.BroadcastsInDim TD1 (![0] : Fin 1 → Fin TD1.rank) := by decide
theorem e_rN : TN.ReducesTo [0] T0 := by decide
theorem e_rS : TS.ReducesTo [0, 1, 2] T0 := by decide
theorem e_g : GatherDims.WF TN TE1 TE [] [0] [] [0] [] 1 ![1] := by decide
theorem e_sD : ScatterDims.WF TN TD1 TD [] [0] [0] 1 := by decide
theorem e_sE : ScatterDims.WF TN TE1 TE [] [0] [0] 1 := by decide
theorem e_rP : TE2.ReducesTo [0] T2 := by decide
theorem e_b2_12 : T2.BroadcastsInDim T12 (![1] : Fin 1 → Fin T12.rank) := by decide
theorem e_b0_12 : T0.BroadcastsInDim T12 (![] : Fin 0 → Fin T12.rank) := by decide
theorem e_b12_P : T12.BroadcastsInDim TE2 (![0, 1] : Fin 2 → Fin TE2.rank) := by decide
theorem e_b0_2 : T0.BroadcastsInDim T2 (![] : Fin 0 → Fin T2.rank) := by decide
theorem e_r2 : T2.ReducesTo [0] T0 := by decide

/-- The take-shaped gather: one collapsed axis, the start index one scalar per result element. -/
def gd : GatherDims TN TE1 TE where
  offsetDims := []
  collapsedSliceDims := [0]
  operandBatchingDims := []
  startIndicesBatchingDims := []
  startIndexMap := [0]
  indexVectorDim := 1
  sliceSizes := ![1]
  wf := e_g

/-- The segment-sum scatter of 3200000 scalars into 100000 nodes. -/
def sdE : ScatterDims TN TE1 TE where
  updateWindowDims := []
  insertedWindowDims := [0]
  scatterDimsToOperandDims := [0]
  indexVectorDim := 1
  wf := e_sE

/-- The segment-sum scatter of 6400000 scalars into 100000 nodes. -/
def sdD : ScatterDims TN TD1 TD where
  updateWindowDims := []
  insertedWindowDims := [0]
  scatterDimsToOperandDims := [0]
  indexVectorDim := 1
  wf := e_sD

variable {F : FTy → Type} [FloatOps F]

/-! ## Stages both programs share -/

/-- Source node of each edge: row 0 of the endpoint table. -/
def srcOf (ei : IVec TI 32) : IVec TE 32 := shapeCast TE (extractStridedSlice T1E ![0, 0] ei e_slI0) e_cI
/-- Destination node of each edge: row 1 of the endpoint table. -/
def dstOf (ei : IVec TI 32) : IVec TE 32 := shapeCast TE (extractStridedSlice T1E ![1, 0] ei e_slI1) e_cI
/-- Node voltage: column 0 of the node features. -/
def vOf (nf : FVec F TN4 .f32) : FVec F TN .f32 := shapeCast TN (extractStridedSlice TN1 ![0, 0] nf e_slN) e_cN
/-- Edge resistance: column 0 of the edge parameters. -/
def rOf (ep : FVec F TE2 .f32) : FVec F TE .f32 := shapeCast TE (extractStridedSlice TE1 ![0, 0] ep e_slP0) e_cP
/-- Edge reactance: column 1 of the edge parameters. -/
def xOf (ep : FVec F TE2 .f32) : FVec F TE .f32 := shapeCast TE (extractStridedSlice TE1 ![0, 1] ep e_slP1) e_cP

/-- A negative index counts from the end: i + 100000 where i < 0, else i. -/
def wrap (i : IVec TE 32) : IVec TE 32 :=
  select (cmpi .slt i (broadcastInDim TE ![] e_b0E (constantI T0 32 0#32)))
    (addi i (broadcastInDim TE ![] e_b0E (constantI T0 32 100000#32))) i
/-- A vector of indices as a column of one-component index vectors. -/
def col (i : IVec TE 32) : IVec TE1 32 := broadcastInDim TE1 ![0] e_bE1 i
/-- The gather of v at the wrapped indices (the start index clamped into the table by the gather itself). -/
def gath (v : FVec F TN .f32) (i : IVec TE 32) : FVec F TE .f32 := Host.gather gd v (col (wrap i))

def oneE : FVec F TE .f32 := broadcastInDim TE ![] e_b0E (constant T0 .f32 0x3F800000#32)
def epsE : FVec F TE .f32 := broadcastInDim TE ![] e_b0E (constant T0 .f32 0x358637BD#32)
def zeroN : FVec F TN .f32 := broadcastInDim TN ![] e_b0N (constant T0 .f32 0x00000000#32)
/-- The edge count 3200000 as a float scalar. -/
def cE0 : FVec F T0 .f32 := constant T0 .f32 0x4A435000#32

/-- The mean over the 100000 nodes of the squared net current. -/
def kclOf (ns : FVec F TN .f32) : FVec F T0 .f32 :=
  Host.divf (Host.reduceAdd (mulf ns ns) (constant T0 .f32 0x00000000#32) e_rN e_h0) (constant T0 .f32 0x47C35000#32)
/-- The result: 1 * (node term) + 1 * (variance term). -/
def outOf (kcl kvl : FVec F T0 .f32) : FVec F T0 .f32 :=
  addf (mulf (constant T0 .f32 0x3F800000#32) kcl) (mulf (constant T0 .f32 0x3F800000#32) kvl)

/-! ## The reference -/

/-- 1 / (1 + exp (-x)) on the host. -/
def sigR (lg : FVec F TE .f32) : FVec F TE .f32 := Host.divf oneE (addf oneE (Host.exp (Host.negf lg)))
/-- The per-edge current on flat vectors. -/
def curR (vs vd lg R X : FVec F TE .f32) : FVec F TE .f32 :=
  mulf (Host.divf (Host.absf (subf vs vd)) (addf (addf R X) epsE)) (sigR lg)
/-- The scatter sum of u at the nodes i, onto zeros. -/
def scatE (i : IVec TE 32) (u : FVec F TE .f32) : FVec F TN .f32 := Host.scatterAdd sdE zeroN (col i) u
/-- Net current per node: what flows in at the destination minus what flows out at the source. -/
def nsR (ei : IVec TI 32) (cur : FVec F TE .f32) : FVec F TN .f32 := subf (scatE (dstOf ei) cur) (scatE (srcOf ei) cur)

/-- The unbiased variance of each of the two columns: sum (x - mean)^2 / (3200000 - 1), under the guard 3200000 - 1 > 0. -/
def varR (ep : FVec F TE2 .f32) : FVec F T2 .f32 :=
  let s : FVec F T2 .f32 := Host.reduceAdd ep (constant T0 .f32 0x00000000#32) e_rP e_h0
  let mu : FVec F T12 .f32 := Host.divf (broadcastInDim T12 ![1] e_b2_12 s) (broadcastInDim T12 ![] e_b0_12 cE0)
  let c : FVec F TE2 .f32 := subf ep (broadcastInDim TE2 ![0, 1] e_b12_P mu)
  let c2 : FVec F TE2 .f32 := mulf c c
  let d : FVec F T0 .f32 := subf cE0 (sitofp .f32 (constantI T0 32 1#32))
  let s2 : FVec F T2 .f32 := Host.reduceAdd c2 (constant T0 .f32 0x00000000#32) e_rP e_h0
  let q : FVec F T2 .f32 := Host.divf s2 (broadcastInDim T2 ![] e_b0_2 d)
  let p : IVec T0 1 := cmpf .ogt d (constant T0 .f32 0x00000000#32)
  select (broadcastInDim T2 ![] e_b0_2 p) q (broadcastInDim T2 ![] e_b0_2 (id (constant T0 .f32 0x7FC00000#32)))
/-- The mean of the two column variances. -/
def kvlR (ep : FVec F TE2 .f32) : FVec F T0 .f32 :=
  Host.divf (Host.reduceAdd (varR ep) (constant T0 .f32 0x00000000#32) e_r2 e_h0) (constant T0 .f32 0x40000000#32)

/-- The reference's result as a function of its four arguments. -/
def refOut (nf : FVec F TN4 .f32) (ei : IVec TI 32) (lg : FVec F TE .f32) (ep : FVec F TE2 .f32) : FVec F T0 .f32 :=
  outOf (kclOf (nsR ei (curR (gath (vOf nf) (srcOf ei)) (gath (vOf nf) (dstOf ei)) lg (rOf ep) (xOf ep)))) (kvlR ep)

/-! ## The kernel -/

/-- Which wrapped indices lie in [0, 99999]. -/
def maskK (i : IVec TE 32) : IVec TE 1 :=
  Host.reduce IntOp.andi
    (andi (cmpi .sge (col (wrap i)) (broadcastInDim TE1 ![] e_b0E1 (constantI T0 32 0#32)))
      (cmpi .sle (col (wrap i))
        (broadcastInDim TE1 ![0, 1] e_b11_E1 (broadcastInDim T11 ![1] e_b1_11 (constantI T1 32 99999#32)))))
    (constantI T0 1 1#1) e_rE1 e_h0
def nanE : FVec F TE .f32 := broadcastInDim TE ![] e_b0E (constant T0 .f32 0x7FC00000#32)
/-- The guarded gather: the gathered value where the wrapped index is in range, a fill value elsewhere. -/
def takeK (v : FVec F TN .f32) (i : IVec TE 32) : FVec F TE .f32 :=
  select (maskK i) (Host.gather gd v (col (wrap i))) nanE

/-- A flat edge vector laid out as 25000 rows of 128 lanes, and back. -/
def to2d (x : FVec F TE .f32) : FVec F TRL .f32 := shapeCast TRL x e_c2d
def to1d (y : FVec F TRL .f32) : FVec F TE .f32 := shapeCast TE y e_c1d

/-- The per-edge current on the [25000, 128] layout: what the five tiles of the kernel's first output hold together. -/
def cur2K (a0 a1 a2 a3 a4 : FVec F TRL .f32) : FVec F TRL .f32 :=
  mulf (divf (absf (subf a0 a1)) (addf (addf a3 a4) (broadcast TRL (Scalar.ofBits .f32 0x358637BD#32)))) (logistic a2)

/-- Row r of tile t. -/
def rowOf (t : Fin 5) (r : Fin 5000) : Fin 25000 := ⟨t.val * 5000 + r.val, by have := t.isLt; have := r.isLt; omega⟩
/-- The per-tile sums, each splatted over its [8, 128] slab: entry (t, _, _) is the sum of tile t of the array. -/
def statK (a : TRL.Idx → EReal) : TS.Idx → EReal := fun j => ∑ y : TB.Idx, a (ix2 (rowOf (j 0) (y 0)) (y 1))

def catF (a b : FVec F TE .f32) : FVec F TD .f32 := concatenate TD 0 [⟨TE, a⟩, ⟨TE, b⟩] e_cat
def catI (a b : IVec TE 32) : IVec TD 32 := concatenate TD 0 [⟨TE, a⟩, ⟨TE, b⟩] e_cat
/-- Net current per node in one scatter sum: cur at the destinations followed by -cur at the sources. -/
def nsK (ei : IVec TI 32) (cur : FVec F TE .f32) : FVec F TN .f32 :=
  Host.scatterAdd sdD zeroN (broadcastInDim TD1 ![0] e_bD1 (catI (dstOf ei) (srcOf ei))) (catF cur (Host.negf cur))

/-- A splatted per-tile statistic summed over all of [5, 8, 128] and divided by the slab size 1024. -/
def sumK (st : FVec F TS .f32) : FVec F T0 .f32 :=
  Host.divf (Host.reduceAdd st (constant T0 .f32 0x00000000#32) e_rS e_h0) (constant T0 .f32 0x44800000#32)
/-- (s2 / n - (s / n)^2) * (n / (n - 1)) with n = 3200000. -/
def varK (s s2 : FVec F T0 .f32) : FVec F T0 .f32 :=
  mulf (subf (Host.divf s2 cE0) (mulf (Host.divf s cE0) (Host.divf s cE0)))
    (Host.divf cE0 (subf cE0 (constant T0 .f32 0x3F800000#32)))
def kvlK (sr sr2 sx sx2 : FVec F T0 .f32) : FVec F T0 .f32 :=
  Host.divf (addf (varK sr sr2) (varK sx sx2)) (constant T0 .f32 0x40000000#32)

/-- The kernel's result as a function of its four arguments, on the extended reals. -/
def kerOut (nf : FVec Ideal TN4 .f32) (ei : IVec TI 32) (lg : FVec Ideal TE .f32) (ep : FVec Ideal TE2 .f32) :
    FVec Ideal T0 .f32 :=
  outOf (kclOf (nsK ei (to1d (cur2K (to2d (takeK (vOf nf) (srcOf ei))) (to2d (takeK (vOf nf) (dstOf ei))) (to2d lg)
      (to2d (rOf ep)) (to2d (xOf ep))))))
    (kvlK (sumK (statK (to2d (rOf ep)))) (sumK (statK (mulf (to2d (rOf ep)) (to2d (rOf ep)))))
      (sumK (statK (to2d (xOf ep)))) (sumK (statK (mulf (to2d (xOf ep)) (to2d (xOf ep))))))

/-! ## The domain the claim is stated on -/

/-- Every float entry a real number, every edge endpoint a node number in [0, 100000). -/
structure Dom (nf : FVec Ideal TN4 .f32) (ei : IVec TI 32) (lg : FVec Ideal TE .f32) (ep : FVec Ideal TE2 .f32) : Prop where
  finN : ∀ i, ∃ r : ℝ, nf i = (r : EReal)
  finL : ∀ i, ∃ r : ℝ, lg i = (r : EReal)
  finP : ∀ i, ∃ r : ℝ, ep i = (r : EReal)
  rng : ∀ k, 0 ≤ (ei k).toInt ∧ (ei k).toInt < 100000

end Cert.Spec

end
-- ==== Proof.KerBlocks.lean ====
/-
  What the five output arrays of the kernel's region hold after the run, as functions of the five arrays it reads.

  The region has five grid points. Point t stages rows 5000 t … 5000 t + 4999 of each of the five edge arrays
  [25000, 128], writes the per-edge current of those rows to the same rows of the first output, and writes the total
  of its block of R, of R², of X and of X², splatted over an [8, 128] slab, to slab t of the four statistic arrays
  [5, 8, 128]. The blocks of the five points tile each output, so each output is one function of the input arrays:
  the per-edge formula entry by entry, respectively the per-tile totals.
-/
import proofs.«425219_j38010460570135_2_alg».proof.Proof.Gen.KernelIdeal.Frame
import proofs.«425219_j38010460570135_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Cert.KernelIdeal.Gen Cert.Spec Idealize.ShloMosaic Idealize.ShloMosaic.TcCoe Idealize.SL.Sem
open Idealize.ShloMosaic.ValueIdx

variable (m : (ℓ : Loc nD τ sig) → Buf (Elt Ideal) ℓ)

/-! ## Sums and layout operations -/

/-- The zero offsets of a whole rank-2 block, as a constant function. -/
theorem hz2 : (![0, 0] : Fin 2 → Nat) = fun _ => 0 := funext fun a => by fin_cases a <;> rfl
/-- The zero offsets of a whole rank-3 block, as a constant function. -/
theorem hz3 : (![0, 0, 0] : Fin 3 → Nat) = fun _ => 0 := funext fun a => by fin_cases a <;> rfl

/-- A reshape keeps the total of the entries: it is a bijection of the index sets. -/
theorem sum_shapeCast {s t : Shape} (v : s.Idx → EReal) (h : s.ShapeCasts t) :
    ∑ j : t.Idx, shapeCast t v h j = ∑ i : s.Idx, v i :=
  Equiv.sum_comp (Shape.reshapeEquiv h) v

/-- An extraction at a fixed position reads the entry there. -/
theorem extractAt_eq {s : Shape} {α : Type} (pos : Fin s.rank → Nat) (x : s.Idx → α) (h : ∀ a, pos a < s.size a) :
    extractAt pos x h = x (fun a => ⟨pos a, h a⟩) := rfl
/-- A reshape at an index reads the operand at the index of the same row-major position. -/
theorem shapeCast_eq {s t : Shape} {α : Type} (x : s.Idx → α) (h : s.ShapeCasts t) (j : t.Idx) :
    shapeCast t x h j = x (Shape.reshapeEquiv h j) := rfl

/-- The sum of a [5000, 128] block over both axes, taken on its [1, 5000, 128] reshape, is the total of the block. -/
theorem total_apply (v : FVec Ideal S5000x128 .f32) (j : S1.Idx) :
    multiReduction .add [1, 2] S1 (shapeCast S1x5000x128 v shapeCasts_S5000x128_S1x5000x128) 0x00000000#32
      reduces_S1x5000x128_S1 (.inl rfl) rfl j = ∑ q : S5000x128.Idx, v q :=
  (Ideal.multiReduction_add_total _ 0x00000000#32 reduces_S1x5000x128_S1 (fun b => by fin_cases b; rfl) (.inl rfl) rfl j).trans
    (sum_shapeCast v shapeCasts_S5000x128_S1x5000x128)

/-! ## The body's arithmetic on whole blocks -/

/-- The current payload is the per-edge formula on the five loaded blocks. -/
theorem pay5_eq (x0 x1 x2 x3 x4 : Vec Ideal S5000x128 .f32) :
    k0_pay5 x0 x1 x2 x3 x4
      = mulf (divf (absf (subf x0 x1)) (addf (addf x3 x4) (broadcast S5000x128 (Scalar.ofBits .f32 0x358637BD#32)))) (logistic x2) := by
  unfold k0_pay5 k0_pay3 k0_pay4
  simp only [shapeCast_self]

/-- Every entry of the first statistic's payload is the total of the block. -/
theorem pay6_apply (v : Vec Ideal S5000x128 .f32) (y : S1x8x128.Idx) : k0_pay6 v y = ∑ q : S5000x128.Idx, v q := by
  unfold k0_pay6 k0_pay3
  rw [broadcast_apply, extractAt_eq, shapeCast_eq, shapeCast_self]
  exact total_apply v _

/-- Every entry of the second statistic's payload is the total of the block's squares. -/
theorem pay7_apply (v : Vec Ideal S5000x128 .f32) (y : S1x8x128.Idx) : k0_pay7 v y = ∑ q : S5000x128.Idx, mulf v v q := by
  unfold k0_pay7 k0_pay3
  rw [broadcast_apply, extractAt_eq, shapeCast_eq, shapeCast_self]
  exact total_apply (mulf v v) _

/-- Every entry of the third statistic's payload is the total of the block. -/
theorem pay8_apply (v : Vec Ideal S5000x128 .f32) (y : S1x8x128.Idx) : k0_pay1 (k0_pay8 v) y = ∑ q : S5000x128.Idx, v q := by
  unfold k0_pay1 k0_pay8 k0_pay4
  rw [broadcast_apply, extractAt_eq, shapeCast_eq, shapeCast_self]
  exact total_apply v _

/-- Every entry of the fourth statistic's payload is the total of the block's squares. -/
theorem pay9_apply (v : Vec Ideal S5000x128 .f32) (y : S1x8x128.Idx) : k0_pay2 (k0_pay4 v) y = ∑ q : S5000x128.Idx, mulf v v q := by
  unfold k0_pay2 k0_pay4
  rw [broadcast_apply, extractAt_eq, shapeCast_eq, shapeCast_self]
  exact total_apply (mulf v v) _

/-! ## Which rows each point stages -/

/-- The printed index maps over the five points: point t stages rows 5000 t … 5000 t + 4999 of each edge array and
    slab t of each statistic array. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0)
    ∧ (win0_9.index t (0 : Fin 3) = t.val ∧ win0_9.index t (1 : Fin 3) = 0 ∧ win0_9.index t (2 : Fin 3) = 0) :=
  (by decide +kernel : ∀ t : Fin grid0.N, _)

/-- A grid point as a tile number. -/
def pt (t : Fin cfg0.N) : Fin 5 := ⟨t.val, Nat.lt_of_lt_of_eq t.isLt (N_0 : cfg0.N = 5)⟩
theorem pt_val (t : Fin cfg0.N) : (pt t).val = t.val := rfl

/-! ## A block read off its array -/

/-- Window 0's block at point t, read off any contents of its array: entry (r, l) of the block is entry
    (5000 t + r, l) of the array. -/
theorem blk0_read (c : Dev nD) (A : Buf (Elt Ideal) ((c : Thread nD τ).loc main_v12)) (t : Fin cfg0.N) (q : S5000x128.Idx) :
    (((cfg0.win 0).blk t).view.read (Elt Ideal) A : Vec Ideal S5000x128 .f32) q
      = (A : FVec Ideal TRL .f32) (ix2 (rowOf (pt t) (q 0)) (q 1)) := by
  have hi := (idx_facts t).1
  rw [View.read_apply]
  show A _ = A _
  refine congrArg A ?_
  funext a
  apply Fin.ext
  match a with
  | ⟨0, _⟩ => show win0_0.index t (0 : Fin 2) * 5000 + 1 * (q 0).val = t.val * 5000 + (q 0).val; rw [hi.1]; omega
  | ⟨1, _⟩ => show win0_0.index t (1 : Fin 2) * 128 + 1 * (q 1).val = (q 1).val; rw [hi.2]; omega

/-- Window 1's block at point t, read off any contents of its array: entry (r, l) of the block is entry
    (5000 t + r, l) of the array. -/
theorem blk1_read (c : Dev nD) (A : Buf (Elt Ideal) ((c : Thread nD τ).loc main_v13)) (t : Fin cfg0.N) (q : S5000x128.Idx) :
    (((cfg0.win 1).blk t).view.read (Elt Ideal) A : Vec Ideal S5000x128 .f32) q
      = (A : FVec Ideal TRL .f32) (ix2 (rowOf (pt t) (q 0)) (q 1)) := by
  have hi := (idx_facts t).2.1
  rw [View.read_apply]
  show A _ = A _
  refine congrArg A ?_
  funext a
  apply Fin.ext
  match a with
  | ⟨0, _⟩ => show win0_1.index t (0 : Fin 2) * 5000 + 1 * (q 0).val = t.val * 5000 + (q 0).val; rw [hi.1]; omega
  | ⟨1, _⟩ => show win0_1.index t (1 : Fin 2) * 128 + 1 * (q 1).val = (q 1).val; rw [hi.2]; omega

/-- Window 2's block at point t, read off any contents of its array: entry (r, l) of the block is entry
    (5000 t + r, l) of the array. -/
theorem blk2_read (c : Dev nD) (A : Buf (Elt Ideal) ((c : Thread nD τ).loc main_v14)) (t : Fin cfg0.N) (q : S5000x128.Idx) :
    (((cfg0.win 2).blk t).view.read (Elt Ideal) A : Vec Ideal S5000x128 .f32) q
      = (A : FVec Ideal TRL .f32) (ix2 (rowOf (pt t) (q 0)) (q 1)) := by
  have hi := (idx_facts t).2.2.1
  rw [View.read_apply]
  show A _ = A _
  refine congrArg A ?_
  funext a
  apply Fin.ext
  match a with
  | ⟨0, _⟩ => show win0_2.index t (0 : Fin 2) * 5000 + 1 * (q 0).val = t.val * 5000 + (q 0).val; rw [hi.1]; omega
  | ⟨1, _⟩ => show win0_2.index t (1 : Fin 2) * 128 + 1 * (q 1).val = (q 1).val; rw [hi.2]; omega

/-- Window 3's block at point t, read off any contents of its array: entry (r, l) of the block is entry
    (5000 t + r, l) of the array. -/
theorem blk3_read (c : Dev nD) (A : Buf (Elt Ideal) ((c : Thread nD τ).loc main_v15)) (t : Fin cfg0.N) (q : S5000x128.Idx) :
    (((cfg0.win 3).blk t).view.read (Elt Ideal) A : Vec Ideal S5000x128 .f32) q
      = (A : FVec Ideal TRL .f32) (ix2 (rowOf (pt t) (q 0)) (q 1)) := by
  have hi := (idx_facts t).2.2.2.1
  rw [View.read_apply]
  show A _ = A _
  refine congrArg A ?_
  funext a
  apply Fin.ext
  match a with
  | ⟨0, _⟩ => show win0_3.index t (0 : Fin 2) * 5000 + 1 * (q 0).val = t.val * 5000 + (q 0).val; rw [hi.1]; omega
  | ⟨1, _⟩ => show win0_3.index t (1 : Fin 2) * 128 + 1 * (q 1).val = (q 1).val; rw [hi.2]; omega

/-- Window 4's block at point t, read off any contents of its array: entry (r, l) of the block is entry
    (5000 t + r, l) of the array. -/
theorem blk4_read (c : Dev nD) (A : Buf (Elt Ideal) ((c : Thread nD τ).loc main_v16)) (t : Fin cfg0.N) (q : S5000x128.Idx) :
    (((cfg0.win 4).blk t).view.read (Elt Ideal) A : Vec Ideal S5000x128 .f32) q
      = (A : FVec Ideal TRL .f32) (ix2 (rowOf (pt t) (q 0)) (q 1)) := by
  have hi := (idx_facts t).2.2.2.2.1
  rw [View.read_apply]
  show A _ = A _
  refine congrArg A ?_
  funext a
  apply Fin.ext
  match a with
  | ⟨0, _⟩ => show win0_4.index t (0 : Fin 2) * 5000 + 1 * (q 0).val = t.val * 5000 + (q 0).val; rw [hi.1]; omega
  | ⟨1, _⟩ => show win0_4.index t (1 : Fin 2) * 128 + 1 * (q 1).val = (q 1).val; rw [hi.2]; omega

/-- Window 5's block at point t, read off any contents of its array: entry (r, l) of the block is entry
    (5000 t + r, l) of the array. -/
theorem blk5_read (c : Dev nD) (A : Buf (Elt Ideal) ((c : Thread nD τ).loc main_v17_0)) (t : Fin cfg0.N) (q : S5000x128.Idx) :
    (((cfg0.win 5).blk t).view.read (Elt Ideal) A : Vec Ideal S5000x128 .f32) q
      = (A : FVec Ideal TRL .f32) (ix2 (rowOf (pt t) (q 0)) (q 1)) := by
  have hi := (idx_facts t).2.2.2.2.2.1
  rw [View.read_apply]
  show A _ = A _
  refine congrArg A ?_
  funext a
  apply Fin.ext
  match a with
  | ⟨0, _⟩ => show win0_5.index t (0 : Fin 2) * 5000 + 1 * (q 0).val = t.val * 5000 + (q 0).val; rw [hi.1]; omega
  | ⟨1, _⟩ => show win0_5.index t (1 : Fin 2) * 128 + 1 * (q 1).val = (q 1).val; rw [hi.2]; omega

/-- Window 6's block at point t, read off any contents of its array: the block is slab t of the array. -/
theorem blk6_read (c : Dev nD) (G : Buf (Elt Ideal) ((c : Thread nD τ).loc main_v17_1)) (t : Fin cfg0.N) (y : S1x8x128.Idx)
    (i : TS.Idx) (h0 : (i 0).val = t.val) (h1 : (i 1).val = (y 1).val) (h2 : (i 2).val = (y 2).val) :
    (((cfg0.win 6).blk t).view.read (Elt Ideal) G : Vec Ideal S1x8x128 .f32) y = (G : FVec Ideal TS .f32) i := by
  have hi := (idx_facts t).2.2.2.2.2.2.1
  have hy : (y 0).val < 1 := (y 0).isLt
  rw [View.read_apply]
  show G _ = G _
  refine congrArg G ?_
  funext a
  apply Fin.ext
  match a with
  | ⟨0, _⟩ => show win0_6.index t (0 : Fin 3) * 1 + 1 * (y 0).val = (i 0).val; rw [hi.1, h0]; omega
  | ⟨1, _⟩ => show win0_6.index t (1 : Fin 3) * 8 + 1 * (y 1).val = (i 1).val; rw [hi.2.1, h1]; omega
  | ⟨2, _⟩ => show win0_6.index t (2 : Fin 3) * 128 + 1 * (y 2).val = (i 2).val; rw [hi.2.2, h2]; omega

/-- Window 7's block at point t, read off any contents of its array: the block is slab t of the array. -/
theorem blk7_read (c : Dev nD) (G : Buf (Elt Ideal) ((c : Thread nD τ).loc main_v17_2)) (t : Fin cfg0.N) (y : S1x8x128.Idx)
    (i : TS.Idx) (h0 : (i 0).val = t.val) (h1 : (i 1).val = (y 1).val) (h2 : (i 2).val = (y 2).val) :
    (((cfg0.win 7).blk t).view.read (Elt Ideal) G : Vec Ideal S1x8x128 .f32) y = (G : FVec Ideal TS .f32) i := by
  have hi := (idx_facts t).2.2.2.2.2.2.2.1
  have hy : (y 0).val < 1 := (y 0).isLt
  rw [View.read_apply]
  show G _ = G _
  refine congrArg G ?_
  funext a
  apply Fin.ext
  match a with
  | ⟨0, _⟩ => show win0_7.index t (0 : Fin 3) * 1 + 1 * (y 0).val = (i 0).val; rw [hi.1, h0]; omega
  | ⟨1, _⟩ => show win0_7.index t (1 : Fin 3) * 8 + 1 * (y 1).val = (i 1).val; rw [hi.2.1, h1]; omega
  | ⟨2, _⟩ => show win0_7.index t (2 : Fin 3) * 128 + 1 * (y 2).val = (i 2).val; rw [hi.2.2, h2]; omega

/-- Window 8's block at point t, read off any contents of its array: the block is slab t of the array. -/
theorem blk8_read (c : Dev nD) (G : Buf (Elt Ideal) ((c : Thread nD τ).loc main_v17_3)) (t : Fin cfg0.N) (y : S1x8x128.Idx)
    (i : TS.Idx) (h0 : (i 0).val = t.val) (h1 : (i 1).val = (y 1).val) (h2 : (i 2).val = (y 2).val) :
    (((cfg0.win 8).blk t).view.read (Elt Ideal) G : Vec Ideal S1x8x128 .f32) y = (G : FVec Ideal TS .f32) i := by
  have hi := (idx_facts t).2.2.2.2.2.2.2.2.1
  have hy : (y 0).val < 1 := (y 0).isLt
  rw [View.read_apply]
  show G _ = G _
  refine congrArg G ?_
  funext a
  apply Fin.ext
  match a with
  | ⟨0, _⟩ => show win0_8.index t (0 : Fin 3) * 1 + 1 * (y 0).val = (i 0).val; rw [hi.1, h0]; omega
  | ⟨1, _⟩ => show win0_8.index t (1 : Fin 3) * 8 + 1 * (y 1).val = (i 1).val; rw [hi.2.1, h1]; omega
  | ⟨2, _⟩ => show win0_8.index t (2 : Fin 3) * 128 + 1 * (y 2).val = (i 2).val; rw [hi.2.2, h2]; omega

/-- Window 9's block at point t, read off any contents of its array: the block is slab t of the array. -/
theorem blk9_read (c : Dev nD) (G : Buf (Elt Ideal) ((c : Thread nD τ).loc main_v17_4)) (t : Fin cfg0.N) (y : S1x8x128.Idx)
    (i : TS.Idx) (h0 : (i 0).val = t.val) (h1 : (i 1).val = (y 1).val) (h2 : (i 2).val = (y 2).val) :
    (((cfg0.win 9).blk t).view.read (Elt Ideal) G : Vec Ideal S1x8x128 .f32) y = (G : FVec Ideal TS .f32) i := by
  have hi := (idx_facts t).2.2.2.2.2.2.2.2.2
  have hy : (y 0).val < 1 := (y 0).isLt
  rw [View.read_apply]
  show G _ = G _
  refine congrArg G ?_
  funext a
  apply Fin.ext
  match a with
  | ⟨0, _⟩ => show win0_9.index t (0 : Fin 3) * 1 + 1 * (y 0).val = (i 0).val; rw [hi.1, h0]; omega
  | ⟨1, _⟩ => show win0_9.index t (1 : Fin 3) * 8 + 1 * (y 1).val = (i 1).val; rw [hi.2.1, h1]; omega
  | ⟨2, _⟩ => show win0_9.index t (2 : Fin 3) * 128 + 1 * (y 2).val = (i 2).val; rw [hi.2.2, h2]; omega

/-! ## What one point leaves, entry by entry -/

/-- A pipeline block's entry at j is the staged contents' entry at j. -/
theorem cut_apply {G : Pipeline.Grid} (w : Pipeline.Window sig G) {α : Type} (i : G.Coords) (X : w.block.Idx → α)
    (j : (w.xblock i).Idx) : w.cut i X j = X (w.xinj i j) := rfl

/-- The current payload at an entry, from the five blocks' entries there. -/
theorem cur_at (a0 a1 a2 a3 a4 : FVec Ideal TRL .f32) (x0 x1 x2 x3 x4 : Vec Ideal S5000x128 .f32) (q : S5000x128.Idx)
    (i : TRL.Idx) (h0 : x0 q = a0 i) (h1 : x1 q = a1 i) (h2 : x2 q = a2 i) (h3 : x3 q = a3 i) (h4 : x4 q = a4 i) :
    k0_pay5 x0 x1 x2 x3 x4 q = cur2K a0 a1 a2 a3 a4 i := by
  rw [pay5_eq]
  unfold cur2K
  simp only [mulf, divf, absf, subf, addf, logistic, broadcast, h0, h1, h2, h3, h4]

/-- A block's total is the tile's entry of the statistic, when the block is the tile. -/
theorem stat_at (a : FVec Ideal TRL .f32) (x : Vec Ideal S5000x128 .f32) (i : TS.Idx)
    (h : ∀ q : S5000x128.Idx, x q = a (ix2 (rowOf (i 0) (q 0)) (q 1))) :
    ∑ q : S5000x128.Idx, x q = statK a i := by
  unfold statK
  exact Finset.sum_congr rfl fun q _ => h q

/-- Squares of equal entries are equal. -/
theorem sq_at (a : FVec Ideal TRL .f32) (x : Vec Ideal S5000x128 .f32) (q : S5000x128.Idx) (k : TRL.Idx) (h : x q = a k) :
    mulf (F := Ideal) (s := S5000x128) (φ := .f32) x x q = mulf (F := Ideal) (s := TRL) (φ := .f32) a a k := by
  simp only [mulf, h]

/-- What point t leaves of the current: block t of the per-edge formula of the five arrays. -/
theorem cur_point (c : Dev nD) (t : Fin cfg0.N) (j : S5000x128.Idx) :
    k0_pay5 (iblk m c 0 t) (iblk m c 1 t) (iblk m c 2 t) (iblk m c 3 t) (iblk m c 4 t) j
      = (((cfg0.win 5).blk t).view.read (Elt Ideal) (cur2K (F := Ideal) (V m c main_v12) (V m c main_v13) (V m c main_v14) (V m c main_v15) (V m c main_v16)) : Vec Ideal S5000x128 .f32) j :=
  (cur_at (V m c main_v12) (V m c main_v13) (V m c main_v14) (V m c main_v15) (V m c main_v16) (iblk m c 0 t) (iblk m c 1 t) (iblk m c 2 t) (iblk m c 3 t) (iblk m c 4 t) j (ix2 (rowOf (pt t) (j 0)) (j 1))
    (blk0_read c (V m c main_v12) t j) (blk1_read c (V m c main_v13) t j) (blk2_read c (V m c main_v14) t j) (blk3_read c (V m c main_v15) t j)
    (blk4_read c (V m c main_v16) t j)).trans
  (blk5_read c (cur2K (F := Ideal) (V m c main_v12) (V m c main_v13) (V m c main_v14) (V m c main_v15) (V m c main_v16)) t j).symm

/-- What point t leaves of statistic window 6: slab t of the per-tile totals. -/
theorem stat6_point (c : Dev nD) (t : Fin cfg0.N) (y : S1x8x128.Idx) :
    k0_pay6 (iblk m c 3 t) y
      = (((cfg0.win 6).blk t).view.read (Elt Ideal) (statK (V m c main_v15)) : Vec Ideal S1x8x128 .f32) y :=
  ((pay6_apply (iblk m c 3 t) y).trans
    (stat_at (V m c main_v15) (iblk m c 3 t) (ix3 (pt t) (y 1) (y 2)) (fun q => blk3_read c (V m c main_v15) t q))).trans
  (blk6_read c (statK (V m c main_v15)) t y (ix3 (pt t) (y 1) (y 2)) rfl rfl rfl).symm

/-- What point t leaves of statistic window 7: slab t of the per-tile totals. -/
theorem stat7_point (c : Dev nD) (t : Fin cfg0.N) (y : S1x8x128.Idx) :
    k0_pay7 (iblk m c 3 t) y
      = (((cfg0.win 7).blk t).view.read (Elt Ideal) (statK (mulf (F := Ideal) (s := TRL) (φ := .f32) (V m c main_v15) (V m c main_v15))) : Vec Ideal S1x8x128 .f32) y :=
  ((pay7_apply (iblk m c 3 t) y).trans
    (stat_at (mulf (F := Ideal) (s := TRL) (φ := .f32) (V m c main_v15) (V m c main_v15)) (mulf (F := Ideal) (s := S5000x128) (φ := .f32) (iblk m c 3 t) (iblk m c 3 t)) (ix3 (pt t) (y 1) (y 2)) (fun q => sq_at (V m c main_v15) (iblk m c 3 t) q _ (blk3_read c (V m c main_v15) t q)))).trans
  (blk7_read c (statK (mulf (F := Ideal) (s := TRL) (φ := .f32) (V m c main_v15) (V m c main_v15))) t y (ix3 (pt t) (y 1) (y 2)) rfl rfl rfl).symm

/-- What point t leaves of statistic window 8: slab t of the per-tile totals. -/
theorem stat8_point (c : Dev nD) (t : Fin cfg0.N) (y : S1x8x128.Idx) :
    k0_pay1 (k0_pay8 (iblk m c 4 t)) y
      = (((cfg0.win 8).blk t).view.read (Elt Ideal) (statK (V m c main_v16)) : Vec Ideal S1x8x128 .f32) y :=
  ((pay8_apply (iblk m c 4 t) y).trans
    (stat_at (V m c main_v16) (iblk m c 4 t) (ix3 (pt t) (y 1) (y 2)) (fun q => blk4_read c (V m c main_v16) t q))).trans
  (blk8_read c (statK (V m c main_v16)) t y (ix3 (pt t) (y 1) (y 2)) rfl rfl rfl).symm

/-- What point t leaves of statistic window 9: slab t of the per-tile totals. -/
theorem stat9_point (c : Dev nD) (t : Fin cfg0.N) (y : S1x8x128.Idx) :
    k0_pay2 (k0_pay4 (iblk m c 4 t)) y
      = (((cfg0.win 9).blk t).view.read (Elt Ideal) (statK (mulf (F := Ideal) (s := TRL) (φ := .f32) (V m c main_v16) (V m c main_v16))) : Vec Ideal S1x8x128 .f32) y :=
  ((pay9_apply (iblk m c 4 t) y).trans
    (stat_at (mulf (F := Ideal) (s := TRL) (φ := .f32) (V m c main_v16) (V m c main_v16)) (mulf (F := Ideal) (s := S5000x128) (φ := .f32) (iblk m c 4 t) (iblk m c 4 t)) (ix3 (pt t) (y 1) (y 2)) (fun q => sq_at (V m c main_v16) (iblk m c 4 t) q _ (blk4_read c (V m c main_v16) t q)))).trans
  (blk9_read c (statK (mulf (F := Ideal) (s := TRL) (φ := .f32) (V m c main_v16) (V m c main_v16))) t y (ix3 (pt t) (y 1) (y 2)) rfl rfl rfl).symm

/-! ## What one point writes back -/

/-- Point t writes back block t of the per-edge formula of the five arrays. -/
theorem flushed5_eq (c : Dev nD) (t : Fin cfg0.N) :
    (dats m 0 c).flushed 5 t = ((cfg0.win 5).blk t).view.read (Elt Ideal) (cur2K (F := Ideal) (V m c main_v12) (V m c main_v13) (V m c main_v14) (V m c main_v15) (V m c main_v16)) := by
  show (cfg0.win 5).cut (grid0.coords t) ((dats m 0 c).after 5 t) = _
  rw [after0_5]
  unfold out0_5
  rw [View.canon_unit_zero hz2]
  simp only [View.ld_unit_zero (S := S5000x128) hz2]
  funext j
  rw [cut_apply]
  exact cur_point m c t _

/-- Point t writes back slab t of the per-tile totals. -/
theorem flushed6_eq (c : Dev nD) (t : Fin cfg0.N) :
    (dats m 0 c).flushed 6 t = ((cfg0.win 6).blk t).view.read (Elt Ideal) (statK (V m c main_v15)) := by
  show (cfg0.win 6).cut (grid0.coords t) ((dats m 0 c).after 6 t) = _
  rw [after0_6]
  unfold out0_6
  rw [View.canon_unit_zero hz3]
  simp only [View.ld_unit_zero (S := S5000x128) hz2]
  funext y
  rw [cut_apply]
  exact stat6_point m c t _

/-- Point t writes back slab t of the per-tile totals. -/
theorem flushed7_eq (c : Dev nD) (t : Fin cfg0.N) :
    (dats m 0 c).flushed 7 t = ((cfg0.win 7).blk t).view.read (Elt Ideal) (statK (mulf (F := Ideal) (s := TRL) (φ := .f32) (V m c main_v15) (V m c main_v15))) := by
  show (cfg0.win 7).cut (grid0.coords t) ((dats m 0 c).after 7 t) = _
  rw [after0_7]
  unfold out0_7
  rw [View.canon_unit_zero hz3]
  simp only [View.ld_unit_zero (S := S5000x128) hz2]
  funext y
  rw [cut_apply]
  exact stat7_point m c t _

/-- Point t writes back slab t of the per-tile totals. -/
theorem flushed8_eq (c : Dev nD) (t : Fin cfg0.N) :
    (dats m 0 c).flushed 8 t = ((cfg0.win 8).blk t).view.read (Elt Ideal) (statK (V m c main_v16)) := by
  show (cfg0.win 8).cut (grid0.coords t) ((dats m 0 c).after 8 t) = _
  rw [after0_8]
  unfold out0_8
  rw [View.canon_unit_zero hz3]
  simp only [View.ld_unit_zero (S := S5000x128) hz2]
  funext y
  rw [cut_apply]
  exact stat8_point m c t _

/-- Point t writes back slab t of the per-tile totals. -/
theorem flushed9_eq (c : Dev nD) (t : Fin cfg0.N) :
    (dats m 0 c).flushed 9 t = ((cfg0.win 9).blk t).view.read (Elt Ideal) (statK (mulf (F := Ideal) (s := TRL) (φ := .f32) (V m c main_v16) (V m c main_v16))) := by
  show (cfg0.win 9).cut (grid0.coords t) ((dats m 0 c).after 9 t) = _
  rw [after0_9]
  unfold out0_9
  rw [View.canon_unit_zero hz3]
  simp only [View.ld_unit_zero (S := S5000x128) hz2]
  funext y
  rw [cut_apply]
  exact stat9_point m c t _

/-! ## The blocks tile the arrays -/

/-- An index of the current array is in point t's block iff each coordinate is in the block's range on its axis. -/
theorem mem_blk5 (t : Fin cfg0.N) (i : S25000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v17_0).slice (win0_5.rect t)).set ↔ _
  rw [View.set_slice_whole, Rect.mem_set_unit]
  exact Iff.rfl

/-- Row r of the current array is in the block of point r / 5000. -/
theorem cover5 (i : S25000x128.Idx) : ∃ t : Fin cfg0.N, (cfg0.win 5).flush t = true ∧ i ∈ ((cfg0.win 5).blk t).view.set := by
  have hi0 : (i 0).val < 25000 := (i 0).isLt
  have hi1 : (i 1).val < 128 := (i 1).isLt
  have ht : (i 0).val / 5000 < cfg0.N := by rw [show cfg0.N = 5 from N_0]; omega
  have hf := (idx_facts ⟨(i 0).val / 5000, ht⟩).2.2.2.2.2.1
  refine ⟨⟨(i 0).val / 5000, ht⟩, flush0_5 _, ?_⟩
  rw [mem_blk5]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [hf.1]; show (i 0).val / 5000 * 5000 ≤ (i 0).val ∧ (i 0).val < (i 0).val / 5000 * 5000 + 5000; omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [hf.2]; omega

/-- An index of statistic array 1 is in point t's block iff each coordinate is in the block's range on its axis. -/
theorem mem_blk6 (t : Fin cfg0.N) (i : S5x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v17_1).slice (win0_6.rect t)).set ↔ _
  rw [View.set_slice_whole, Rect.mem_set_unit]
  exact Iff.rfl

/-- Slab s of statistic array 1 is the block of point s. -/
theorem cover6 (i : S5x8x128.Idx) : ∃ t : Fin cfg0.N, (cfg0.win 6).flush t = true ∧ i ∈ ((cfg0.win 6).blk t).view.set := by
  have hi0 : (i 0).val < 5 := (i 0).isLt
  have hi1 : (i 1).val < 8 := (i 1).isLt
  have hi2 : (i 2).val < 128 := (i 2).isLt
  have ht : (i 0).val < cfg0.N := by rw [show cfg0.N = 5 from N_0]; omega
  have hf := (idx_facts ⟨(i 0).val, ht⟩).2.2.2.2.2.2.1
  refine ⟨⟨(i 0).val, ht⟩, flush0_6 _, ?_⟩
  rw [mem_blk6]
  intro a
  match a with
  | ⟨0, _⟩ =>
    show win0_6.index ⟨(i 0).val, ht⟩ (0 : Fin 3) * 1 ≤ (i 0).val ∧ (i 0).val < win0_6.index ⟨(i 0).val, ht⟩ (0 : Fin 3) * 1 + 1
    rw [hf.1]; show (i 0).val * 1 ≤ (i 0).val ∧ (i 0).val < (i 0).val * 1 + 1; omega
  | ⟨1, _⟩ =>
    show win0_6.index ⟨(i 0).val, ht⟩ (1 : Fin 3) * 8 ≤ (i 1).val ∧ (i 1).val < win0_6.index ⟨(i 0).val, ht⟩ (1 : Fin 3) * 8 + 8
    rw [hf.2.1]; omega
  | ⟨2, _⟩ =>
    show win0_6.index ⟨(i 0).val, ht⟩ (2 : Fin 3) * 128 ≤ (i 2).val ∧ (i 2).val < win0_6.index ⟨(i 0).val, ht⟩ (2 : Fin 3) * 128 + 128
    rw [hf.2.2]; omega

/-- An index of statistic array 2 is in point t's block iff each coordinate is in the block's range on its axis. -/
theorem mem_blk7 (t : Fin cfg0.N) (i : S5x8x128.Idx) :
    i ∈ ((cfg0.win 7).blk t).view.set ↔ ∀ a : Fin 3, win0_7.index t a * S1x8x128.size a ≤ (i a).val ∧ (i a).val < win0_7.index t a * S1x8x128.size a + S1x8x128.size a := by
  show i ∈ ((View.whole main_v17_2).slice (win0_7.rect t)).set ↔ _
  rw [View.set_slice_whole, Rect.mem_set_unit]
  exact Iff.rfl

/-- Slab s of statistic array 2 is the block of point s. -/
theorem cover7 (i : S5x8x128.Idx) : ∃ t : Fin cfg0.N, (cfg0.win 7).flush t = true ∧ i ∈ ((cfg0.win 7).blk t).view.set := by
  have hi0 : (i 0).val < 5 := (i 0).isLt
  have hi1 : (i 1).val < 8 := (i 1).isLt
  have hi2 : (i 2).val < 128 := (i 2).isLt
  have ht : (i 0).val < cfg0.N := by rw [show cfg0.N = 5 from N_0]; omega
  have hf := (idx_facts ⟨(i 0).val, ht⟩).2.2.2.2.2.2.2.1
  refine ⟨⟨(i 0).val, ht⟩, flush0_7 _, ?_⟩
  rw [mem_blk7]
  intro a
  match a with
  | ⟨0, _⟩ =>
    show win0_7.index ⟨(i 0).val, ht⟩ (0 : Fin 3) * 1 ≤ (i 0).val ∧ (i 0).val < win0_7.index ⟨(i 0).val, ht⟩ (0 : Fin 3) * 1 + 1
    rw [hf.1]; show (i 0).val * 1 ≤ (i 0).val ∧ (i 0).val < (i 0).val * 1 + 1; omega
  | ⟨1, _⟩ =>
    show win0_7.index ⟨(i 0).val, ht⟩ (1 : Fin 3) * 8 ≤ (i 1).val ∧ (i 1).val < win0_7.index ⟨(i 0).val, ht⟩ (1 : Fin 3) * 8 + 8
    rw [hf.2.1]; omega
  | ⟨2, _⟩ =>
    show win0_7.index ⟨(i 0).val, ht⟩ (2 : Fin 3) * 128 ≤ (i 2).val ∧ (i 2).val < win0_7.index ⟨(i 0).val, ht⟩ (2 : Fin 3) * 128 + 128
    rw [hf.2.2]; omega

/-- An index of statistic array 3 is in point t's block iff each coordinate is in the block's range on its axis. -/
theorem mem_blk8 (t : Fin cfg0.N) (i : S5x8x128.Idx) :
    i ∈ ((cfg0.win 8).blk t).view.set ↔ ∀ a : Fin 3, win0_8.index t a * S1x8x128.size a ≤ (i a).val ∧ (i a).val < win0_8.index t a * S1x8x128.size a + S1x8x128.size a := by
  show i ∈ ((View.whole main_v17_3).slice (win0_8.rect t)).set ↔ _
  rw [View.set_slice_whole, Rect.mem_set_unit]
  exact Iff.rfl

/-- Slab s of statistic array 3 is the block of point s. -/
theorem cover8 (i : S5x8x128.Idx) : ∃ t : Fin cfg0.N, (cfg0.win 8).flush t = true ∧ i ∈ ((cfg0.win 8).blk t).view.set := by
  have hi0 : (i 0).val < 5 := (i 0).isLt
  have hi1 : (i 1).val < 8 := (i 1).isLt
  have hi2 : (i 2).val < 128 := (i 2).isLt
  have ht : (i 0).val < cfg0.N := by rw [show cfg0.N = 5 from N_0]; omega
  have hf := (idx_facts ⟨(i 0).val, ht⟩).2.2.2.2.2.2.2.2.1
  refine ⟨⟨(i 0).val, ht⟩, flush0_8 _, ?_⟩
  rw [mem_blk8]
  intro a
  match a with
  | ⟨0, _⟩ =>
    show win0_8.index ⟨(i 0).val, ht⟩ (0 : Fin 3) * 1 ≤ (i 0).val ∧ (i 0).val < win0_8.index ⟨(i 0).val, ht⟩ (0 : Fin 3) * 1 + 1
    rw [hf.1]; show (i 0).val * 1 ≤ (i 0).val ∧ (i 0).val < (i 0).val * 1 + 1; omega
  | ⟨1, _⟩ =>
    show win0_8.index ⟨(i 0).val, ht⟩ (1 : Fin 3) * 8 ≤ (i 1).val ∧ (i 1).val < win0_8.index ⟨(i 0).val, ht⟩ (1 : Fin 3) * 8 + 8
    rw [hf.2.1]; omega
  | ⟨2, _⟩ =>
    show win0_8.index ⟨(i 0).val, ht⟩ (2 : Fin 3) * 128 ≤ (i 2).val ∧ (i 2).val < win0_8.index ⟨(i 0).val, ht⟩ (2 : Fin 3) * 128 + 128
    rw [hf.2.2]; omega

/-- An index of statistic array 4 is in point t's block iff each coordinate is in the block's range on its axis. -/
theorem mem_blk9 (t : Fin cfg0.N) (i : S5x8x128.Idx) :
    i ∈ ((cfg0.win 9).blk t).view.set ↔ ∀ a : Fin 3, win0_9.index t a * S1x8x128.size a ≤ (i a).val ∧ (i a).val < win0_9.index t a * S1x8x128.size a + S1x8x128.size a := by
  show i ∈ ((View.whole main_v17_4).slice (win0_9.rect t)).set ↔ _
  rw [View.set_slice_whole, Rect.mem_set_unit]
  exact Iff.rfl

/-- Slab s of statistic array 4 is the block of point s. -/
theorem cover9 (i : S5x8x128.Idx) : ∃ t : Fin cfg0.N, (cfg0.win 9).flush t = true ∧ i ∈ ((cfg0.win 9).blk t).view.set := by
  have hi0 : (i 0).val < 5 := (i 0).isLt
  have hi1 : (i 1).val < 8 := (i 1).isLt
  have hi2 : (i 2).val < 128 := (i 2).isLt
  have ht : (i 0).val < cfg0.N := by rw [show cfg0.N = 5 from N_0]; omega
  have hf := (idx_facts ⟨(i 0).val, ht⟩).2.2.2.2.2.2.2.2.2
  refine ⟨⟨(i 0).val, ht⟩, flush0_9 _, ?_⟩
  rw [mem_blk9]
  intro a
  match a with
  | ⟨0, _⟩ =>
    show win0_9.index ⟨(i 0).val, ht⟩ (0 : Fin 3) * 1 ≤ (i 0).val ∧ (i 0).val < win0_9.index ⟨(i 0).val, ht⟩ (0 : Fin 3) * 1 + 1
    rw [hf.1]; show (i 0).val * 1 ≤ (i 0).val ∧ (i 0).val < (i 0).val * 1 + 1; omega
  | ⟨1, _⟩ =>
    show win0_9.index ⟨(i 0).val, ht⟩ (1 : Fin 3) * 8 ≤ (i 1).val ∧ (i 1).val < win0_9.index ⟨(i 0).val, ht⟩ (1 : Fin 3) * 8 + 8
    rw [hf.2.1]; omega
  | ⟨2, _⟩ =>
    show win0_9.index ⟨(i 0).val, ht⟩ (2 : Fin 3) * 128 ≤ (i 2).val ∧ (i 2).val < win0_9.index ⟨(i 0).val, ht⟩ (2 : Fin 3) * 128 + 128
    rw [hf.2.2]; omega

/-! ## The arrays after the run -/

theorem arr5 (c : Dev nD) : (dats m 0 c).arrAt 5 cfg0.N
    = cur2K (F := Ideal) (V m c main_v12) (V m c main_v13) (V m c main_v14) (V m c main_v15) (V m c main_v16) :=
  (dats m 0 c).arrAt_eq_of_cover 5 (cur2K (F := Ideal) (V m c main_v12) (V m c main_v13) (V m c main_v14) (V m c main_v15) (V m c main_v16)) (fun t _ => flushed5_eq m c t) cover5

theorem arr6 (c : Dev nD) : (dats m 0 c).arrAt 6 cfg0.N = statK (V m c main_v15) :=
  (dats m 0 c).arrAt_eq_of_cover 6 (statK (V m c main_v15)) (fun t _ => flushed6_eq m c t) cover6

theorem arr7 (c : Dev nD) : (dats m 0 c).arrAt 7 cfg0.N = statK (mulf (F := Ideal) (s := TRL) (φ := .f32) (V m c main_v15) (V m c main_v15)) :=
  (dats m 0 c).arrAt_eq_of_cover 7 (statK (mulf (F := Ideal) (s := TRL) (φ := .f32) (V m c main_v15) (V m c main_v15))) (fun t _ => flushed7_eq m c t) cover7

theorem arr8 (c : Dev nD) : (dats m 0 c).arrAt 8 cfg0.N = statK (V m c main_v16) :=
  (dats m 0 c).arrAt_eq_of_cover 8 (statK (V m c main_v16)) (fun t _ => flushed8_eq m c t) cover8

theorem arr9 (c : Dev nD) : (dats m 0 c).arrAt 9 cfg0.N = statK (mulf (F := Ideal) (s := TRL) (φ := .f32) (V m c main_v16) (V m c main_v16)) :=
  (dats m 0 c).arrAt_eq_of_cover 9 (statK (mulf (F := Ideal) (s := TRL) (φ := .f32) (V m c main_v16) (V m c main_v16))) (fun t _ => flushed9_eq m c t) cover9

end Cert.KernelIdeal.Blocks

end
-- ==== Proof.LibTRef.lean ====
/-
  A typed reference carries a buffer together with the fact that the buffer's type is the value's. Contents are moved
  to the buffer's own type and back along that fact; moving there and back changes nothing. Stated for any typed
  reference, so that such pairs can be removed from a term by rewriting, without comparing the terms they wrap.
-/
import Idealize.ShloMosaic.Lib.StableHlo

namespace Idealize.ShloMosaic.StableHlo.TRef

open Idealize.ShloMosaic

variable {sig : RefSig} {T : BufTy} {Val : EltTy → Type}

/-- Contents carried to a buffer's own type and back are unchanged. -/
theorem ofBuf_toBuf (x : TRef sig T) (v : T.Contents Val) : x.ofBuf (x.toBuf v) = v := by
  obtain ⟨r, h, h2, h3⟩ := x
  subst h
  rfl

/-- Contents of a buffer carried to the value's type and back are unchanged. -/
theorem toBuf_ofBuf (x : TRef sig T) (v : x.ref.ty.Contents Val) : x.toBuf (x.ofBuf v) = v := by
  obtain ⟨r, h, h2, h3⟩ := x
  subst h
  rfl

end Idealize.ShloMosaic.StableHlo.TRef
-- ==== Proof.KerHost.lean ====
/-
  The kernel program's run: its result is the kernel's function of the four arguments, and the arguments are unchanged.

  Before the region the program slices the arguments into the node voltages, the two endpoint vectors and the two edge
  parameter columns, gathers the voltages at both endpoints under the range guard, and lays the five per-edge vectors out
  as 25000 rows of 128. The region leaves the per-edge current and four arrays of per-tile sums. After the region the
  program flattens the current, scatters it and its negative in one sum over the nodes, averages the squares, sums and
  scales the per-tile sums into the two column variances, and adds the two means. Each of these chains of operations is,
  term for term, the stage of the same name in the specification, so each reading below closes by unfolding both sides.
-/
import proofs.«425219_j38010460570135_2_alg».proof.Proof.KerBlocks
import proofs.«425219_j38010460570135_2_alg».proof.Proof.LibTRef
import Idealize.ShloMosaic.Lib.StableHlo.Run

noncomputable section

namespace Cert.KernelIdeal.Host

open Cert.KernelIdeal Cert.KernelIdeal.Gen Cert.Spec Idealize.ShloMosaic Idealize.ShloMosaic.TcCoe Idealize.SL.Sem

/-! ## The arrays the region reads, and the two index vectors the later operations read

Each is a chain of the operations before the region applied to the argument arrays: the same chain the stage of that name
in the specification is. -/

section Before

variable (m : (ℓ : Loc nD τ sig) → Buf (Elt Ideal) ℓ)

/-- The first array the region reads: the guarded gather of the node voltages at the source nodes, as 25000 rows. -/
theorem V_v12 (c : Dev nD) : (V m c main_v12 : FVec Ideal TRL .f32)
    = to2d (F := Ideal) (takeK (F := Ideal) (vOf (F := Ideal) (m ((c.tc : Thread nD τ).loc main_arg0)))
        (srcOf (m ((c.tc : Thread nD τ).loc main_arg1)))) := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  simp only [StableHlo.TRef.ofBuf_toBuf]
  simp only [StableHlo.TRef.ofBuf, StableHlo.TRef.toBuf, cast_eq]
  rfl

/-- The second: the same gather at the destination nodes. -/
theorem V_v13 (c : Dev nD) : (V m c main_v13 : FVec Ideal TRL .f32)
    = to2d (F := Ideal) (takeK (F := Ideal) (vOf (F := Ideal) (m ((c.tc : Thread nD τ).loc main_arg0)))
        (dstOf (m ((c.tc : Thread nD τ).loc main_arg1)))) := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  simp only [StableHlo.TRef.ofBuf_toBuf]
  simp only [StableHlo.TRef.ofBuf, StableHlo.TRef.toBuf, cast_eq]
  rfl

/-- The third: the edge logits as 25000 rows. -/
theorem V_v14 (c : Dev nD) : (V m c main_v14 : FVec Ideal TRL .f32)
    = to2d (F := Ideal) (m ((c.tc : Thread nD τ).loc main_arg2)) := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  rfl

/-- The fourth: the edge resistances as 25000 rows. -/
theorem V_v15 (c : Dev nD) : (V m c main_v15 : FVec Ideal TRL .f32)
    = to2d (F := Ideal) (rOf (F := Ideal) (m ((c.tc : Thread nD τ).loc main_arg3))) := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  rfl

/-- The fifth: the edge reactances as 25000 rows. -/
theorem V_v16 (c : Dev nD) : (V m c main_v16 : FVec Ideal TRL .f32)
    = to2d (F := Ideal) (xOf (F := Ideal) (m ((c.tc : Thread nD τ).loc main_arg3))) := by
  dsimp only [Gen.V, Gen.V0]
  simp only [Gen.hostOps0, Gen.hostOps0_1, Gen.hostOps0_2, Gen.hostOps0_3, List.flatten_cons, List.flatten_nil, List.append_nil,
    List.cons_append, List.nil_append]
  after_results_simp
  rfl

/-- The destination nodes, which the operations after the region read again. -/
theorem V0_v5 (c : Dev nD) : (V0 m c (Proc.devRef .tc main_v5) : IVec TE 32)
    = dstOf (m ((c.tc : Thread nD τ).loc main_arg1)) := by
  dsimp only [Gen.V0]
  simp only [Gen.hostOps0, Gen.hostOps0_1, Gen.hostOps0_2, Gen.hostOps0_3, List.flatten_cons, List.flatten_nil, List.append_nil,
    List.cons_append, List.nil_append]
  after_results_simp
  rfl

/-- The source nodes, likewise. -/
theorem V0_v3 (c : Dev nD) : (V0 m c (Proc.devRef .tc main_v3) : IVec TE 32)
    = srcOf (m ((c.tc : Thread nD τ).loc main_arg1)) := by
  dsimp only [Gen.V0]
  simp only [Gen.hostOps0, Gen.hostOps0_1, Gen.hostOps0_2, Gen.hostOps0_3, List.flatten_cons, List.flatten_nil, List.append_nil,
    List.cons_append, List.nil_append]
  after_results_simp
  rfl

end Before

/-! ## The operations after the region

Cut after the four per-tile totals are summed and divided: the first part ends with the node term and the four sums, the
second combines them. Each part is read from any contents the buffers may hold when it starts. -/

section After

variable (W : Valuation τ sig (Elt Ideal))

/-- The operations up to the last of the four sums. -/
abbrev tailSums : List (HloOp τ sig (Elt Ideal)) := (hostOps1 (F := Ideal)).take 29
/-- The operations from there on. -/
abbrev tailMix : List (HloOp τ sig (Elt Ideal)) := (hostOps1 (F := Ideal)).drop 29

/-- The node term: the region's first output flattened is scattered, with its negative, at the destinations followed
    by the sources. -/
theorem sums_v27 (ei : IVec TI 32) (h5 : (W (Proc.devRef .tc main_v5) : IVec TE 32) = dstOf ei)
    (h3 : (W (Proc.devRef .tc main_v3) : IVec TE 32) = srcOf ei) :
    (StableHlo.after tailSums W (Proc.devRef .tc main_v27) : FVec Ideal T0 .f32)
      = kclOf (F := Ideal) (nsK (F := Ideal) ei (to1d (F := Ideal) (W (Proc.devRef .tc main_v17_0)))) := by
  simp only [tailSums, List.take_succ_cons, List.take_zero]
  after_results
  rw [h5, h3]
  rfl

/-- The four sums, each over one of the region's other outputs. -/
theorem sums_v29 : (StableHlo.after tailSums W (Proc.devRef .tc main_v29) : FVec Ideal T0 .f32)
    = sumK (F := Ideal) (W (Proc.devRef .tc main_v17_1)) := by
  simp only [tailSums, List.take_succ_cons, List.take_zero]
  after_results_simp
  rfl
theorem sums_v31 : (StableHlo.after tailSums W (Proc.devRef .tc main_v31) : FVec Ideal T0 .f32)
    = sumK (F := Ideal) (W (Proc.devRef .tc main_v17_2)) := by
  simp only [tailSums, List.take_succ_cons, List.take_zero]
  after_results_simp
  rfl
theorem sums_v33 : (StableHlo.after tailSums W (Proc.devRef .tc main_v33) : FVec Ideal T0 .f32)
    = sumK (F := Ideal) (W (Proc.devRef .tc main_v17_3)) := by
  simp only [tailSums, List.take_succ_cons, List.take_zero]
  after_results_simp
  rfl
theorem sums_v35 : (StableHlo.after tailSums W (Proc.devRef .tc main_v35) : FVec Ideal T0 .f32)
    = sumK (F := Ideal) (W (Proc.devRef .tc main_v17_4)) := by
  simp only [tailSums, List.take_succ_cons, List.take_zero]
  after_results_simp
  rfl

/-- The result from the node term and the four sums. -/
theorem mix_v54 : (StableHlo.after tailMix W (Proc.devRef .tc main_v54) : FVec Ideal T0 .f32)
    = outOf (F := Ideal) (W (Proc.devRef .tc main_v27))
        (kvlK (F := Ideal) (W (Proc.devRef .tc main_v29)) (W (Proc.devRef .tc main_v31))
          (W (Proc.devRef .tc main_v33)) (W (Proc.devRef .tc main_v35))) := by
  simp only [tailMix, List.drop_succ_cons, List.drop_zero]
  after_results_simp
  rfl

/-- The whole line after the region, from contents that hold the two index vectors and the region's five outputs. -/
theorem tail_of (ei : IVec TI 32) (a0 : FVec Ideal TRL .f32) (a1 a2 a3 a4 : FVec Ideal TS .f32)
    (h5 : (W (Proc.devRef .tc main_v5) : IVec TE 32) = dstOf ei)
    (h3 : (W (Proc.devRef .tc main_v3) : IVec TE 32) = srcOf ei)
    (h0 : (W (Proc.devRef .tc main_v17_0) : FVec Ideal TRL .f32) = a0)
    (h1 : (W (Proc.devRef .tc main_v17_1) : FVec Ideal TS .f32) = a1)
    (h2 : (W (Proc.devRef .tc main_v17_2) : FVec Ideal TS .f32) = a2)
    (h3' : (W (Proc.devRef .tc main_v17_3) : FVec Ideal TS .f32) = a3)
    (h4 : (W (Proc.devRef .tc main_v17_4) : FVec Ideal TS .f32) = a4) :
    (StableHlo.after (hostOps1 (F := Ideal)) W (Proc.devRef .tc main_v54) : FVec Ideal T0 .f32)
      = outOf (F := Ideal) (kclOf (F := Ideal) (nsK (F := Ideal) ei (to1d (F := Ideal) a0)))
          (kvlK (F := Ideal) (sumK (F := Ideal) a1) (sumK (F := Ideal) a2) (sumK (F := Ideal) a3) (sumK (F := Ideal) a4)) := by
  have hcut : StableHlo.after (hostOps1 (F := Ideal)) W = StableHlo.after tailMix (StableHlo.after tailSums W) := by
    rw [← StableHlo.after_append, List.take_append_drop]
  rw [hcut, mix_v54, sums_v27 W ei h5 h3, sums_v29, sums_v31, sums_v33, sums_v35, h0, h1, h2, h3', h4]

end After

/-! ## The run -/

section Run

variable (m : (ℓ : Loc nD τ sig) → Buf (Elt Ideal) ℓ)

/-- What the result buffer holds after the whole program: the operations after the region read the two index vectors
    as the operations before it left them, and the region's five outputs, which are the per-edge current and the
    per-tile sums of the arrays the region read. -/
theorem tail_eq (c : Dev nD) :
    Pipeline.afterTail₀ cfgs (dats m) 0 (V0 m) [hostOps1] c main_v54
      = kerOut (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after (hostOps1 (F := Ideal)) _ (Proc.devRef .tc main_v54) = _
  exact tail_of (Pipeline.withArrays spec0 c (V0 m c) fun w => (dats m 0 c).arrAt w cfg0.N)
    (m ((c.tc : Thread nD τ).loc main_arg1)) _ _ _ _ _
    ((Pipeline.withArrays_of_ne spec0 c (V0 m c) _ main_v5 (by decide)).trans (V0_v5 m c))
    ((Pipeline.withArrays_of_ne spec0 c (V0 m c) _ main_v3 (by decide)).trans (V0_v3 m c))
    ((Pipeline.withArrays_arr spec0 launch0.win.arr_inj c _ _ 5).trans
      ((Blocks.arr5 m c).trans (by rw [V_v12, V_v13, V_v14, V_v15, V_v16])))
    ((Pipeline.withArrays_arr spec0 launch0.win.arr_inj c _ _ 6).trans ((Blocks.arr6 m c).trans (by rw [V_v15])))
    ((Pipeline.withArrays_arr spec0 launch0.win.arr_inj c _ _ 7).trans ((Blocks.arr7 m c).trans (by rw [V_v15])))
    ((Pipeline.withArrays_arr spec0 launch0.win.arr_inj c _ _ 8).trans ((Blocks.arr8 m c).trans (by rw [V_v16])))
    ((Pipeline.withArrays_arr spec0 launch0.win.arr_inj c _ _ 9).trans ((Blocks.arr9 m c).trans (by rw [V_v16])))

end Run

/-- Every weakly fair execution ends with the result buffer at the kernel's function of the four argument arrays, and
    with the argument arrays as launched: the result by the reading above, the arguments because no operation and no
    write-back of the region touches them. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v54)
        = kerOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  exact (θ_run defs _ _).mono (fun _ h c =>
    ⟨((h c).2 main_v54 (Pipeline.mem_restRefs_of main_v54 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Host

end
-- ==== Proof.RefRun.lean ====
/-
  The reference program's run: its result is the reference's function of the four arguments, and the arguments are
  unchanged.
-/
import proofs.«425219_j38010460570135_2_alg».proof.ReferenceIdeal
import proofs.«425219_j38010460570135_2_alg».proof.Proof.Gen.ReferenceIdeal
import proofs.«425219_j38010460570135_2_alg».proof.Proof.Spec
import proofs.«425219_j38010460570135_2_alg».proof.Proof.LibTRef
import Idealize.ShloMosaic.Lib.StableHlo.Run

noncomputable section

namespace Cert.ReferenceIdeal.Run

open Cert.ReferenceIdeal Cert.ReferenceIdeal.Gen Cert.Spec Idealize.ShloMosaic Idealize.ShloMosaic.TcCoe Idealize.SL.Sem
  Idealize.ShloMosaic.StableHlo

section Line

variable {F : FTy → Type} [FloatOps F]

/-- The first 58 operations of @main, in order: up to the mean over the nodes of the squared net current. -/
abbrev ops0 : List (HloOp τ sig (Elt F)) :=
  [ StableHlo.unary main_arg2 main_v0 (Host.negf : (⟨S3200000, .f32⟩ : BufTy).Contents (Elt F) → (⟨S3200000, .f32⟩ : BufTy).Contents (Elt F)),
    StableHlo.unary main_v0 main_v1 (Host.exp : (⟨S3200000, .f32⟩ : BufTy).Contents (Elt F) → (⟨S3200000, .f32⟩ : BufTy).Contents (Elt F)),
    StableHlo.nullary main_cst (constant S_ .f32 0x3F800000#32),
    StableHlo.unary main_cst main_v2 (broadcastInDim S3200000 ![] bcast_S_S3200000 : (⟨S_, .f32⟩ : BufTy).Contents (Elt F) → (⟨S3200000, .f32⟩ : BufTy).Contents (Elt F)),
    StableHlo.binary main_v2 main_v1 main_v3 (addf : (⟨S3200000, .f32⟩ : BufTy).Contents (Elt F) → (⟨S3200000, .f32⟩ : BufTy).Contents (Elt F) → (⟨S3200000, .f32⟩ : BufTy).Contents (Elt F)),
    StableHlo.nullary main_cst_0 (constant S_ .f32 0x3F800000#32),
    StableHlo.unary main_cst_0 main_v4 (broadcastInDim S3200000 ![] bcast_S_S3200000 : (⟨S_, .f32⟩ : BufTy).Contents (Elt F) → (⟨S3200000, .f32⟩ : BufTy).Contents (Elt F)),
    StableHlo.binary main_v4 main_v3 main_v5 (Host.divf : (⟨S3200000, .f32⟩ : BufTy).Contents (Elt F) → (⟨S3200000, .f32⟩ : BufTy).Contents (Elt F) → (⟨S3200000, .f32⟩ : BufTy).Contents (Elt F)),
    StableHlo.unary main_arg1 main_v6 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v6 main_v7 rfl shapeCasts_S1x3200000_S3200000,
    StableHlo.unary main_arg1 main_v8 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v8 main_v9 rfl shapeCasts_S1x3200000_S3200000,
    StableHlo.unary main_arg0 main_v10 ((extractStridedSlice S100000x1 ![0, 0] · slices_S100000x4_S100000x1_0_0) : (⟨S100000x4, .f32⟩ : BufTy).Contents (Elt F) → (⟨S100000x1, .f32⟩ : BufTy).Contents (Elt F)),
    StableHlo.reshape main_v10 main_v11 rfl shapeCasts_S100000x1_S100000,
    StableHlo.nullary main_c (constantI S_ 32 0#32),
    StableHlo.unary main_c main_v12 (broadcastInDim S3200000 ![] bcast_S_S3200000 : (⟨S_, .i32⟩ : BufTy).Contents (Elt F) → (⟨S3200000, .i32⟩ : BufTy).Contents (Elt F)),
    StableHlo.binary main_v7 main_v12 main_v13 (cmpi .slt : (⟨S3200000, .i32⟩ : BufTy).Contents (Elt F) → (⟨S3200000, .i32⟩ : BufTy).Contents (Elt F) → (⟨S3200000, .i1⟩ : BufTy).Contents (Elt F)),
    StableHlo.nullary main_c_1 (constantI S_ 32 100000#32),
    StableHlo.unary main_c_1 main_v14 (broadcastInDim S3200000 ![] bcast_S_S3200000 : (⟨S_, .i32⟩ : BufTy).Contents (Elt F) → (⟨S3200000, .i32⟩ : BufTy).Contents (Elt F)),
    StableHlo.binary main_v7 main_v14 main_v15 (addi : (⟨S3200000, .i32⟩ : BufTy).Contents (Elt F) → (⟨S3200000, .i32⟩ : BufTy).Contents (Elt F) → (⟨S3200000, .i32⟩ : BufTy).Contents (Elt F)),
    StableHlo.ternary main_v13 main_v15 main_v7 main_v16 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v16 main_v17 (broadcastInDim S3200000x1 ![0] bcast_S3200000_S3200000x1_0 : (⟨S3200000, .i32⟩ : BufTy).Contents (Elt F) → (⟨S3200000x1, .i32⟩ : BufTy).Contents (Elt F)),
    StableHlo.binary main_v11 main_v17 main_v18 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.nullary main_c_2 (constantI S_ 32 0#32),
    StableHlo.unary main_c_2 main_v19 (broadcastInDim S3200000 ![] bcast_S_S3200000 : (⟨S_, .i32⟩ : BufTy).Contents (Elt F) → (⟨S3200000, .i32⟩ : BufTy).Contents (Elt F)),
    StableHlo.binary main_v9 main_v19 main_v20 (cmpi .slt : (⟨S3200000, .i32⟩ : BufTy).Contents (Elt F) → (⟨S3200000, .i32⟩ : BufTy).Contents (Elt F) → (⟨S3200000, .i1⟩ : BufTy).Contents (Elt F)),
    StableHlo.nullary main_c_3 (constantI S_ 32 100000#32),
    StableHlo.unary main_c_3 main_v21 (broadcastInDim S3200000 ![] bcast_S_S3200000 : (⟨S_, .i32⟩ : BufTy).Contents (Elt F) → (⟨S3200000, .i32⟩ : BufTy).Contents (Elt F)),
    StableHlo.binary main_v9 main_v21 main_v22 (addi : (⟨S3200000, .i32⟩ : BufTy).Contents (Elt F) → (⟨S3200000, .i32⟩ : BufTy).Contents (Elt F) → (⟨S3200000, .i32⟩ : BufTy).Contents (Elt F)),
    StableHlo.ternary main_v20 main_v22 main_v9 main_v23 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v23 main_v24 (broadcastInDim S3200000x1 ![0] bcast_S3200000_S3200000x1_0 : (⟨S3200000, .i32⟩ : BufTy).Contents (Elt F) → (⟨S3200000x1, .i32⟩ : BufTy).Contents (Elt F)),
    StableHlo.binary main_v11 main_v24 main_v25 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    StableHlo.binary main_v18 main_v25 main_v26 (subf : (⟨S3200000, .f32⟩ : BufTy).Contents (Elt F) → (⟨S3200000, .f32⟩ : BufTy).Contents (Elt F) → (⟨S3200000, .f32⟩ : BufTy).Contents (Elt F)),
    StableHlo.unary main_v26 main_v27 (Host.absf : (⟨S3200000, .f32⟩ : BufTy).Contents (Elt F) → (⟨S3200000, .f32⟩ : BufTy).Contents (Elt F)),
    StableHlo.unary main_arg3 main_v28 ((extractStridedSlice S3200000x1 ![0, 0] · slices_S3200000x2_S3200000x1_0_0) : (⟨S3200000x2, .f32⟩ : BufTy).Contents (Elt F) → (⟨S3200000x1, .f32⟩ : BufTy).Contents (Elt F)),
    StableHlo.reshape main_v28 main_v29 rfl shapeCasts_S3200000x1_S3200000,
    StableHlo.unary main_arg3 main_v30 ((extractStridedSlice S3200000x1 ![0, 1] · slices_S3200000x2_S3200000x1_0_1) : (⟨S3200000x2, .f32⟩ : BufTy).Contents (Elt F) → (⟨S3200000x1, .f32⟩ : BufTy).Contents (Elt F)),
    StableHlo.reshape main_v30 main_v31 rfl shapeCasts_S3200000x1_S3200000,
    StableHlo.binary main_v29 main_v31 main_v32 (addf : (⟨S3200000, .f32⟩ : BufTy).Contents (Elt F) → (⟨S3200000, .f32⟩ : BufTy).Contents (Elt F) → (⟨S3200000, .f32⟩ : BufTy).Contents (Elt F)),
    StableHlo.nullary main_cst_4 (constant S_ .f32 0x358637BD#32),
    StableHlo.unary main_cst_4 main_v33 (broadcastInDim S3200000 ![] bcast_S_S3200000 : (⟨S_, .f32⟩ : BufTy).Contents (Elt F) → (⟨S3200000, .f32⟩ : BufTy).Contents (Elt F)),
    StableHlo.binary main_v32 main_v33 main_v34 (addf : (⟨S3200000, .f32⟩ : BufTy).Contents (Elt F) → (⟨S3200000, .f32⟩ : BufTy).Contents (Elt F) → (⟨S3200000, .f32⟩ : BufTy).Contents (Elt F)),
    StableHlo.binary main_v27 main_v34 main_v35 (Host.divf : (⟨S3200000, .f32⟩ : BufTy).Contents (Elt F) → (⟨S3200000, .f32⟩ : BufTy).Contents (Elt F) → (⟨S3200000, .f32⟩ : BufTy).Contents (Elt F)),
    StableHlo.binary main_v35 main_v5 main_v36 (mulf : (⟨S3200000, .f32⟩ : BufTy).Contents (Elt F) → (⟨S3200000, .f32⟩ : BufTy).Contents (Elt F) → (⟨S3200000, .f32⟩ : BufTy).Contents (Elt F)),
    StableHlo.nullary main_cst_5 (constant S_ .f32 0x00000000#32),
    StableHlo.unary main_cst_5 main_v37 (broadcastInDim S100000 ![] bcast_S_S100000 : (⟨S_, .f32⟩ : BufTy).Contents (Elt F) → (⟨S100000, .f32⟩ : BufTy).Contents (Elt F)),
    StableHlo.unary main_v9 main_v38 (broadcastInDim S3200000x1 ![0] bcast_S3200000_S3200000x1_0 : (⟨S3200000, .i32⟩ : BufTy).Contents (Elt F) → (⟨S3200000x1, .i32⟩ : BufTy).Contents (Elt F)),
    StableHlo.ternary main_v37 main_v38 main_v36 main_v39 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_cst_6 (constant S_ .f32 0x00000000#32),
    StableHlo.unary main_cst_6 main_v40 (broadcastInDim S100000 ![] bcast_S_S100000 : (⟨S_, .f32⟩ : BufTy).Contents (Elt F) → (⟨S100000, .f32⟩ : BufTy).Contents (Elt F)),
    StableHlo.unary main_v7 main_v41 (broadcastInDim S3200000x1 ![0] bcast_S3200000_S3200000x1_0 : (⟨S3200000, .i32⟩ : BufTy).Contents (Elt F) → (⟨S3200000x1, .i32⟩ : BufTy).Contents (Elt F)),
    StableHlo.ternary main_v40 main_v41 main_v36 main_v42 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.binary main_v39 main_v42 main_v43 (subf : (⟨S100000, .f32⟩ : BufTy).Contents (Elt F) → (⟨S100000, .f32⟩ : BufTy).Contents (Elt F) → (⟨S100000, .f32⟩ : BufTy).Contents (Elt F)),
    StableHlo.binary main_v43 main_v43 main_v44 (mulf : (⟨S100000, .f32⟩ : BufTy).Contents (Elt F) → (⟨S100000, .f32⟩ : BufTy).Contents (Elt F) → (⟨S100000, .f32⟩ : BufTy).Contents (Elt F)),
    StableHlo.nullary main_cst_7 (constant S_ .f32 0x00000000#32),
    StableHlo.binary main_v44 main_cst_7 main_v45 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)),
    StableHlo.nullary main_cst_8 (constant S_ .f32 0x47C35000#32),
    StableHlo.binary main_v45 main_cst_8 main_v46 (Host.divf : (⟨S_, .f32⟩ : BufTy).Contents (Elt F) → (⟨S_, .f32⟩ : BufTy).Contents (Elt F) → (⟨S_, .f32⟩ : BufTy).Contents (Elt F)) ]

/-- The variance of the edge parameters: the constant one, then the call's 19 operations and the 3 of the selection
    it calls, over the call's buffers. -/
abbrev opsC : List (HloOp τ sig (Elt F)) :=
  [ StableHlo.nullary main_c_9 (constantI S_ 32 1#32),
    StableHlo.TRef.nullary main_call0.cst (constant S_ .f32 0x00000000#32),
    StableHlo.TRef.binary (.of main_arg3) main_call0.cst main_call0.v0 (fun x v => Host.reduceAdd x v reducesTo_S3200000x2_S2_d0 h_S_),
    StableHlo.TRef.unary main_call0.v0 main_call0.v1 (broadcastInDim S1x2 ![1] bcast_S2_S1x2_1),
    StableHlo.TRef.nullary main_call0.cst_0 (constant S_ .f32 0x4A435000#32),
    StableHlo.TRef.unary main_call0.cst_0 main_call0.v2 (broadcastInDim S1x2 ![] bcast_S_S1x2),
    StableHlo.TRef.binary main_call0.v1 main_call0.v2 main_call0.v3 Host.divf,
    StableHlo.TRef.unary main_call0.v3 main_call0.v4 (broadcastInDim S3200000x2 ![0, 1] bcast_S1x2_S3200000x2_0_1),
    StableHlo.TRef.binary (.of main_arg3) main_call0.v4 main_call0.v5 subf,
    StableHlo.TRef.binary main_call0.v5 main_call0.v5 main_call0.v6 mulf,
    StableHlo.TRef.unary (.of main_c_9) main_call0.v7 (sitofp (F := F) .f32),
    StableHlo.TRef.nullary main_call0.cst_1 (constant S_ .f32 0x4A435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S3200000x2_S2_d0 h_S_),
    StableHlo.TRef.unary main_call0.v8 main_call0.v10 (broadcastInDim S2 ![] bcast_S_S2),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf (F := F) .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S2 ![] bcast_S_S2),
    StableHlo.TRef.ternary main_call0.v12 main_call0.v11 main_call0.call0.v1 main_call0.call0.v2 (fun p a b => select (broadcastInDim S2 ![] bcast_S_S2 p) a b) ]

/-- The last 9 operations of @main. -/
abbrev ops1 : List (HloOp τ sig (Elt F)) :=
  [ StableHlo.nullary main_cst_10 (constant S_ .f32 0x00000000#32),
    StableHlo.binary main_v47 main_cst_10 main_v48 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    StableHlo.nullary main_cst_11 (constant S_ .f32 0x40000000#32),
    StableHlo.binary main_v48 main_cst_11 main_v49 (Host.divf : (⟨S_, .f32⟩ : BufTy).Contents (Elt F) → (⟨S_, .f32⟩ : BufTy).Contents (Elt F) → (⟨S_, .f32⟩ : BufTy).Contents (Elt F)),
    StableHlo.nullary main_cst_12 (constant S_ .f32 0x3F800000#32),
    StableHlo.binary main_cst_12 main_v46 main_v50 (mulf : (⟨S_, .f32⟩ : BufTy).Contents (Elt F) → (⟨S_, .f32⟩ : BufTy).Contents (Elt F) → (⟨S_, .f32⟩ : BufTy).Contents (Elt F)),
    StableHlo.nullary main_cst_13 (constant S_ .f32 0x3F800000#32),
    StableHlo.binary main_cst_13 main_v49 main_v51 (mulf : (⟨S_, .f32⟩ : BufTy).Contents (Elt F) → (⟨S_, .f32⟩ : BufTy).Contents (Elt F) → (⟨S_, .f32⟩ : BufTy).Contents (Elt F)),
    StableHlo.binary main_v50 main_v51 main_v52 (addf : (⟨S_, .f32⟩ : BufTy).Contents (Elt F) → (⟨S_, .f32⟩ : BufTy).Contents (Elt F) → (⟨S_, .f32⟩ : BufTy).Contents (Elt F)) ]

/-- @main's 90 operations, the call unfolded. -/
abbrev ops : List (HloOp τ sig (Elt F)) := (ops0 ++ opsC) ++ ops1

theorem part1_eq (c : Dev nD) : main_part1 (F := F) c = seq ops1 := rfl

set_option maxRecDepth 8192 in
set_option maxHeartbeats 4000000 in
theorem part0_eq (c : Dev nD) : main_part0 (F := F) c = seq (ops0 ++ opsC) := by
  simp only [main_part0, fn_var.body, fn_where.body, seq, bind_assoc, pure_bind, List.cons_append, List.nil_append]

theorem main_eq (c : Dev nD) : main (F := F) c = seq ops := by
  rw [ops, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_app {α : Type} {p : α → Prop} {l₁ l₂ : List α} (h₁ : l₁.Forall p) (h₂ : l₂.Forall p) :
    (l₁ ++ l₂).Forall p :=
  List.forall_iff_forall_mem.mpr fun x hx => (List.mem_append.mp hx).elim
    (List.forall_iff_forall_mem.mp h₁ x) (List.forall_iff_forall_mem.mp h₂ x)

theorem ops0_sub : (ops0 : List (HloOp τ sig (Elt F))).Forall fun op => op.bufs ⊆ tcRefs τ sig :=
  ⟨unary_bufs_sub .., unary_bufs_sub .., nullary_bufs_sub .., unary_bufs_sub .., binary_bufs_sub ..,
    nullary_bufs_sub .., unary_bufs_sub .., binary_bufs_sub .., unary_bufs_sub .., reshape_bufs_sub ..,
    unary_bufs_sub .., reshape_bufs_sub .., unary_bufs_sub .., reshape_bufs_sub .., nullary_bufs_sub ..,
    unary_bufs_sub .., binary_bufs_sub .., nullary_bufs_sub .., unary_bufs_sub .., binary_bufs_sub ..,
    ternary_bufs_sub .., unary_bufs_sub .., binary_bufs_sub .., nullary_bufs_sub .., unary_bufs_sub ..,
    binary_bufs_sub .., nullary_bufs_sub .., unary_bufs_sub .., binary_bufs_sub .., ternary_bufs_sub ..,
    unary_bufs_sub .., binary_bufs_sub .., binary_bufs_sub .., unary_bufs_sub .., unary_bufs_sub ..,
    reshape_bufs_sub .., unary_bufs_sub .., reshape_bufs_sub .., binary_bufs_sub .., nullary_bufs_sub ..,
    unary_bufs_sub .., binary_bufs_sub .., binary_bufs_sub .., binary_bufs_sub .., nullary_bufs_sub ..,
    unary_bufs_sub .., unary_bufs_sub .., ternary_bufs_sub .., nullary_bufs_sub .., unary_bufs_sub ..,
    unary_bufs_sub .., ternary_bufs_sub .., binary_bufs_sub .., binary_bufs_sub .., nullary_bufs_sub ..,
    binary_bufs_sub .., nullary_bufs_sub .., binary_bufs_sub ..⟩
theorem opsC_sub : (opsC : List (HloOp τ sig (Elt F))).Forall fun op => op.bufs ⊆ tcRefs τ sig :=
  ⟨nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub ..⟩
theorem ops1_sub : (ops1 : List (HloOp τ sig (Elt F))).Forall fun op => op.bufs ⊆ tcRefs τ sig :=
  ⟨nullary_bufs_sub .., binary_bufs_sub .., nullary_bufs_sub .., binary_bufs_sub .., nullary_bufs_sub ..,
    binary_bufs_sub .., nullary_bufs_sub .., binary_bufs_sub .., binary_bufs_sub ..⟩
theorem ops_sub : (ops : List (HloOp τ sig (Elt F))).Forall fun op => op.bufs ⊆ tcRefs τ sig :=
  forall_app (forall_app ops0_sub opsC_sub) ops1_sub

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl,
    rfl⟩
theorem ops1_fresh : (ops1 : List (HloOp τ sig (Elt F))).Forall fun op => op.fresh = ∅ :=
  ⟨rfl, rfl, rfl, rfl, rfl, rfl, rfl, rfl, rfl⟩
/-- Every operation determines what it writes. -/
theorem ops_fresh : ∀ op ∈ (ops : List (HloOp τ sig (Elt F))), op.fresh = ∅ :=
  List.forall_iff_forall_mem.mp (forall_app (forall_app ops0_fresh opsC_fresh) ops1_fresh)

/-- Running two lines in a row is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## What the result buffer holds

The three stretches one after the other. The first ends with the mean over the nodes of the squared net current in
`main_v46`; the second leaves that alone and ends with the two column variances in `main_v47`; the third reads the two.
Each stretch's fold is the corresponding stage of the specification by computation: the fold unrolled, each
operation's result at its own buffer its function's value and at any other buffer what was there. The gather, the
scatter sum, the sums and the host's one-operand functions stay folded meanwhile: the comparison is of the terms'
structure and never looks inside them. -/

attribute [local irreducible] Host.gather Host.scatterAdd Host.reduceAdd Host.exp Host.divf Host.negf Host.absf in
set_option maxRecDepth 8192 in
/-- After the first stretch: the node term. -/
theorem out0 (V : Valuation τ sig (Elt F)) :
    after ops0 V (main_v46 : DevRef τ sig)
      = kclOf (nsR (V (main_arg1 : DevRef τ sig))
          (curR (gath (vOf (V (main_arg0 : DevRef τ sig))) (srcOf (V (main_arg1 : DevRef τ sig))))
            (gath (vOf (V (main_arg0 : DevRef τ sig))) (dstOf (V (main_arg1 : DevRef τ sig))))
            (V (main_arg2 : DevRef τ sig)) (rOf (V (main_arg3 : DevRef τ sig))) (xOf (V (main_arg3 : DevRef τ sig))))) := by
  after_results_simp
  rfl

/-- The first stretch leaves the edge parameters as they were. -/
theorem keep0 (V : Valuation τ sig (Elt F)) :
    after ops0 V (main_arg3 : DevRef τ sig) = V (main_arg3 : DevRef τ sig) := by
  after_results_simp

attribute [local irreducible] Host.reduceAdd Host.divf in
/-- After the second stretch: the two column variances. -/
theorem outC (W : Valuation τ sig (Elt F)) :
    after opsC W (main_v47 : DevRef τ sig) = varR (W (main_arg3 : DevRef τ sig)) := by
  after_results_simp
  rfl

/-- The second stretch leaves the node term as it was. -/
theorem keepC (W : Valuation τ sig (Elt F)) :
    after opsC W (main_v46 : DevRef τ sig) = W (main_v46 : DevRef τ sig) := by
  after_results_simp

attribute [local irreducible] Host.reduceAdd Host.divf in
/-- After the third stretch: the sum of the two terms. -/
theorem out1 (W : Valuation τ sig (Elt F)) :
    after ops1 W (main_v52 : DevRef τ sig)
      = outOf (W (main_v46 : DevRef τ sig))
          (Host.divf (Host.reduceAdd (W (main_v47 : DevRef τ sig)) (constant T0 .f32 0x00000000#32) e_r2 e_h0)
            (constant T0 .f32 0x40000000#32)) := by
  after_results_simp
  rfl

/-- The result buffer after the whole line: the reference's function of the four arguments. -/
theorem out_eq (V : Valuation τ sig (Elt F)) :
    after ops V (main_v52 : DevRef τ sig)
      = refOut (V (main_arg0 : DevRef τ sig)) (V (main_arg1 : DevRef τ sig)) (V (main_arg2 : DevRef τ sig))
          (V (main_arg3 : DevRef τ sig)) := by
  rw [ops, after_app, after_app, out1, outC, keepC, out0, keep0]
  rfl

theorem arg0_eq (V : Valuation τ sig (Elt F)) :
    after ops V (main_arg0 : DevRef τ sig) = V (main_arg0 : DevRef τ sig) := by
  rw [ops, after_app, after_app]
  after_results_simp

theorem arg1_eq (V : Valuation τ sig (Elt F)) :
    after ops V (main_arg1 : DevRef τ sig) = V (main_arg1 : DevRef τ sig) := by
  rw [ops, after_app, after_app]
  after_results_simp

theorem arg2_eq (V : Valuation τ sig (Elt F)) :
    after ops V (main_arg2 : DevRef τ sig) = V (main_arg2 : DevRef τ sig) := by
  rw [ops, after_app, after_app]
  after_results_simp

theorem arg3_eq (V : Valuation τ sig (Elt F)) :
    after ops V (main_arg3 : DevRef τ sig) = V (main_arg3 : DevRef τ sig) := by
  rw [ops, after_app, after_app]
  after_results_simp

end Line

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v52)
        = refOut (F := Ideal) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v52).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ (fun _ => ops_fresh))

end Cert.ReferenceIdeal.Run

end
-- ==== Proof.PreDecode.lean ====
/-
  The stated precondition, all ones, says: every float entry is a real number and every edge endpoint is a node number.
-/
import proofs.«425219_j38010460570135_2_alg».proof.Pre_finite_inputs
import proofs.«425219_j38010460570135_2_alg».proof.Proof.Spec
import Idealize.ShloMosaic.Lib.ReduceAll
import Idealize.ShloMosaic.Lib.StableHlo.Predicate

noncomputable section

namespace Cert.PreDecode

open Idealize.ShloMosaic Cert.Spec

/-- The rank-0 shape has one index. -/
instance : Subsingleton Cert.Pre_finite_inputs.S_.Idx := ⟨fun a b => funext fun d => d.elim0⟩

/-- The pattern 0x7F800000 denotes +∞. -/
theorem ofBits_inf : Ideal.ofBits .f32 0x7F800000#32 = (⊤ : EReal) := by
  simp [Ideal.ofBits, Ideal.ieee]

/-- |x| < +∞ says x is neither infinity, so a real number. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  rw [StableHlo.Predicate.ofBool_eq_one_iff, decide_eq_true_eq] at h
  have h1 : x < ⊤ := lt_of_le_of_lt (le_max_left _ _) h
  have h2 : -x < ⊤ := lt_of_le_of_lt (le_max_right _ _) h
  have h3 : x ≠ ⊥ := by
    rintro rfl
    exact absurd h2 (by simp)
  exact ⟨x.toReal, (EReal.coe_toReal h1.ne h3).symm⟩

/-- 0 ≤ w and w < 100000 as signed words say just that of the word's integer value. -/
theorem range_of_cmp (w : BitVec 32) (h0 : IntOp.cmpi .sge w 0#32 = 1#1) (h1 : IntOp.cmpi .slt w 100000#32 = 1#1) :
    0 ≤ w.toInt ∧ w.toInt < 100000 := by
  have a0 := IntOp.cmpi_sge.1 h0
  have a1 := IntOp.cmpi_slt.1 h1
  have e0 : (0#32 : BitVec 32).toInt = 0 := by decide
  have e1 : (100000#32 : BitVec 32).toInt = 100000 := by decide
  rw [e0] at a0
  rw [e1] at a1
  exact ⟨a0, a1⟩

theorem dom_of_pre [Cert.Pre_finite_inputs.Facts] (nf : FVec Ideal TN4 .f32) (ei : IVec TI 32) (lg : FVec Ideal TE .f32)
    (ep : FVec Ideal TE2 .f32) (h : Cert.Pre_finite_inputs.fn (F := Ideal) nf ei lg ep = fun _ => 1#1) :
    Dom nf ei lg ep := by
  have e := congrFun h ValueIdx.ix0
  dsimp only [Cert.Pre_finite_inputs.fn, Cert.Pre_finite_inputs.fn_part1] at e
  obtain ⟨e123, hI⟩ := IntOp.andi_eq_one.1 e
  obtain ⟨e12, hP⟩ := IntOp.andi_eq_one.1 e123
  obtain ⟨hN, hL⟩ := IntOp.andi_eq_one.1 e12
  have aN := Host.reduce_andi_all _ _ _ _ _ hN
  have aL := Host.reduce_andi_all _ _ _ _ _ hL
  have aP := Host.reduce_andi_all _ _ _ _ _ hP
  have aI := Host.reduce_andi_all _ _ _ _ _ hI
  refine ⟨fun i => real_of_abs_lt_inf (nf i) (aN i), fun i => real_of_abs_lt_inf (lg i) (aL i),
    fun i => real_of_abs_lt_inf (ep i) (aP i), fun k => ?_⟩
  obtain ⟨b0, b1⟩ := IntOp.andi_eq_one.1 (aI k)
  exact range_of_cmp (ei k) b0 b1

end Cert.PreDecode

end
-- ==== Proof.Reads.lean ====
/-
  Readings of the shared stages at an index, and the guarded gather on in-range indices.

  The source and destination vectors are rows of the endpoint table, R and X columns of the parameter table: each
  entry of a stage is one entry of the table it is cut from, so bounds and finiteness pass from the table to the stage.
  Where every index i satisfies 0 ≤ i < 100000 the wrap leaves it alone and the range test holds at every position, so
  the guarded gather is the plain gather.
-/
import proofs.«425219_j38010460570135_2_alg».proof.Proof.Spec
import Idealize.ShloMosaic.Lib.StableHlo.Predicate

noncomputable section

namespace Cert.Reads

open Idealize.ShloMosaic Cert.Spec

theorem srcOf_rng (ei : IVec TI 32) (h : ∀ k, 0 ≤ (ei k).toInt ∧ (ei k).toInt < 100000) :
    ∀ e, 0 ≤ (srcOf ei e).toInt ∧ (srcOf ei e).toInt < 100000 := by
  intro e
  unfold srcOf shapeCast extractStridedSlice
  exact h _

theorem dstOf_rng (ei : IVec TI 32) (h : ∀ k, 0 ≤ (ei k).toInt ∧ (ei k).toInt < 100000) :
    ∀ e, 0 ≤ (dstOf ei e).toInt ∧ (dstOf ei e).toInt < 100000 := by
  intro e
  unfold dstOf shapeCast extractStridedSlice
  exact h _

theorem rOf_fin (ep : FVec Ideal TE2 .f32) (h : ∀ i, ∃ r : ℝ, ep i = (r : EReal)) :
    ∀ e, ∃ r : ℝ, rOf ep e = (r : EReal) := by
  intro e
  unfold rOf shapeCast extractStridedSlice
  exact h _

theorem xOf_fin (ep : FVec Ideal TE2 .f32) (h : ∀ i, ∃ r : ℝ, ep i = (r : EReal)) :
    ∀ e, ∃ r : ℝ, xOf ep e = (r : EReal) := by
  intro e
  unfold xOf shapeCast extractStridedSlice
  exact h _

/-- A 32-bit word whose signed value lies in [0, 100000) has its unsigned value below 100000 as well. -/
theorem toNat_lt_of_rng {w : BitVec 32} (h0 : 0 ≤ w.toInt) (h1 : w.toInt < 100000) : w.toNat < 100000 := by
  have hc := BitVec.toInt_eq_toNat_cond w
  have hlt := w.isLt
  split_ifs at hc <;> omega

/-- Such a word is not negative: the signed test against zero fails. -/
theorem slt_zero_of_rng {w : BitVec 32} (h0 : 0 ≤ w.toInt) : IntOp.cmpi .slt w 0#32 = 0#1 := by
  have hz : (0#32 : BitVec 32).toInt = 0 := by decide
  have hb : w.slt 0#32 = false := by
    rw [BitVec.slt_eq_decide, hz, decide_eq_false_iff_not]; omega
  unfold IntOp.cmpi
  simp only [hb, BitVec.ofBool_false]
  rfl

/-- Such a word passes both range tests, so the conjunction of the two tests is one. -/
theorem inRange_of_rng {w : BitVec 32} (h0 : 0 ≤ w.toInt) (h1 : w.toInt < 100000) :
    IntOp.andi (IntOp.cmpi .sge w 0#32) (IntOp.cmpi .sle w 99999#32) = 1#1 := by
  have hn := toNat_lt_of_rng h0 h1
  have hw : w.toNat < 2 ^ 31 := by omega
  have hz : (0#32 : BitVec 32).toNat < 2 ^ 31 := by decide
  have hm : (99999#32 : BitVec 32).toNat < 2 ^ 31 := by decide
  have hmv : (99999#32 : BitVec 32).toNat = 99999 := by decide
  have hge : IntOp.cmpi .sge w 0#32 = 1#1 :=
    (StableHlo.Predicate.sge_iff_toNat hw hz).2 (Nat.zero_le _)
  have hle : IntOp.cmpi .sle w 99999#32 = 1#1 :=
    (StableHlo.Predicate.sle_iff_toNat hw hm).2 (by rw [hmv]; omega)
  rw [hge, hle]
  rfl

/-- On indices that are not negative the wrap changes nothing. -/
theorem wrap_eq (i : IVec TE 32) (hi : ∀ e, 0 ≤ (i e).toInt ∧ (i e).toInt < 100000) : wrap i = i := by
  funext e
  have hs : IntOp.cmpi .slt (i e) 0#32 = 0#1 := slt_zero_of_rng (hi e).1
  show Scalar.select (IntOp.cmpi .slt (i e) 0#32) _ (i e) = i e
  rw [hs]
  rfl

/-- Folding the conjunction from one over entries that are all one gives one, over any set of positions. -/
theorem fold_andi_one {ι : Type} (S : Finset ι) :
    S.fold IntOp.andi (1#1 : BitVec 1) (fun _ => (1#1 : BitVec 1)) = 1#1 := by
  induction S using Finset.cons_induction with
  | empty => rfl
  | cons a S ha ih => rw [Finset.fold_cons, ih]; rfl

/-- Where every index is in range the range mask is one at every position. -/
theorem maskK_eq_one (i : IVec TE 32) (hi : ∀ e, 0 ≤ (i e).toInt ∧ (i e).toInt < 100000) :
    maskK i = fun _ => 1#1 := by
  have hin : andi (cmpi .sge (col (wrap i)) (broadcastInDim TE1 ![] e_b0E1 (constantI T0 32 0#32)))
      (cmpi .sle (col (wrap i))
        (broadcastInDim TE1 ![0, 1] e_b11_E1 (broadcastInDim T11 ![1] e_b1_11 (constantI T1 32 99999#32))))
      = fun _ => (1#1 : BitVec 1) := by
    rw [wrap_eq i hi]
    funext k
    exact inRange_of_rng (hi _).1 (hi _).2
  funext e
  unfold maskK
  rw [hin, Host.reduce_eq_fold]
  exact fold_andi_one _

/-- On indices in [0, 100000) the guarded gather is the plain gather. -/
theorem takeK_eq_gath (v : FVec Ideal TN .f32) (i : IVec TE 32)
    (hi : ∀ e, 0 ≤ (i e).toInt ∧ (i e).toInt < 100000) : takeK v i = gath v i := by
  unfold takeK gath
  rw [maskK_eq_one i hi]
  funext e
  show Scalar.select (1#1 : BitVec 1) _ _ = _
  unfold Scalar.select
  exact if_pos (by decide)

end Cert.Reads

end
-- ==== Proof.Current.lean ====
/-
  The per-edge current computed on the [25000, 128] layout and flattened is the per-edge current computed flat.
-/
import proofs.«425219_j38010460570135_2_alg».proof.Proof.Spec
import Idealize.ShloMosaic.Lib.Pipeline.Value
import Idealize.ShloMosaic.Lib.ValueLayout
import Idealize.ShloMosaic.Lib.IdealHost

noncomputable section

namespace Cert.Current

open Idealize.ShloMosaic Cert.Spec

/-- Laying a flat vector out as [25000, 128] and reading it back flat returns the vector: both casts read in
    row-major order. -/
theorem to1d_to2d (a : FVec Ideal TE .f32) : to1d (to2d a) = a := shapeCast_shapeCast a e_c2d e_c1d

/-- The flat position e of the [25000, 128] layout holds the element e of the flat vector. -/
theorem to2d_at (a : FVec Ideal TE .f32) (e : TE.Idx) : to2d a (Shape.reshapeEquiv e_c1d e) = a e :=
  congrFun (to1d_to2d a) e

/-- The literal one, read anywhere on the flat vector, is the extended real one. -/
theorem oneE_apply (e : TE.Idx) : (oneE : FVec Ideal TE .f32) e = 1 := by
  show Ideal.ofBits .f32 0x3F800000#32 = 1
  exact Ideal.ofBits_one_f32

/-- The small constant of the denominator reads the same literal in both programs. -/
theorem epsE_apply (e : TE.Idx) (j : TRL.Idx) :
    (epsE : FVec Ideal TE .f32) e = broadcast TRL (Scalar.ofBits (F := Ideal) .f32 0x358637BD#32) j := rfl

theorem current_eq (a0 a1 a2 a3 a4 : FVec Ideal TE .f32) :
    to1d (cur2K (to2d a0) (to2d a1) (to2d a2) (to2d a3) (to2d a4)) = curR a0 a1 a2 a3 a4 := by
  funext e
  show cur2K (to2d a0) (to2d a1) (to2d a2) (to2d a3) (to2d a4) (Shape.reshapeEquiv e_c1d e) = _
  simp only [cur2K, curR, sigR, mulf, divf, absf, subf, addf, logistic, Host.divf, Host.absf, Host.exp, Host.negf,
    to2d_at, oneE_apply, epsE_apply e (Shape.reshapeEquiv e_c1d e)]
  -- at the extended reals the host's quotient, absolute value, exponential and negation are the kernel's, and the
  -- logistic is 1 / (1 + exp (-x)) by definition
  rfl

end Cert.Current

end
-- ==== Proof.LibVecScatterAdd.lean ====
/-
  An accumulating scatter of a vector of scalars into a vector, read at an index on the extended reals.

  The scatter takes an operand `x : [N]`, updates `upd : [R]` and indices as a column `idx : [R, 1]`, with an `add`
  body: no update window axis, inserted window axis 0, the scatter index naming operand axis 0 (the segment sum of
  `upd` by `idx`, added onto `x`). Update element `r` lands on operand element `idx[r, 0]` (the index read signed,
  NOT clamped; outside `[0, N)` the update is dropped). So element `n` of the result is `x n` plus the sum of `upd r`
  over the `r` whose index is `n`.
-/
import Idealize.ShloMosaic.Lib.ValueIdx
import Idealize.ShloMosaic.Lib.ValueIdxRank1
import Idealize.ShloMosaic.PureOps.Ideal.Laws

noncomputable section

namespace Idealize.ShloMosaic.ValueIdx

section VecScatterAdd

/-- Those dimension numbers for an operand `[N]`, scatter indices `[R, 1]` and updates `[R]`. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The operand's one axis is the inserted window axis: no operand axis is left for an update window. -/
theorem vs_not_mem_sKept {N R : Nat}
    (wf : ScatterDims.WF ⟨1, ![N]⟩ ⟨2, ![R, 1]⟩ ⟨1, ![R]⟩ [] [0] [0] 1) :
    (0 : Fin 1) ∉ (vecScatterDims N R wf).sKept := by
  show (0 : Fin 1) ∉ (List.finRange 1).filter (fun a => a ∉ [(0 : Fin 1)])
  decide

/-- On the operand's axis the window coordinate is `0`: an update is one scalar. -/
theorem vs_window {N R : Nat}
    (wf : ScatterDims.WF ⟨1, ![N]⟩ ⟨2, ![R, 1]⟩ ⟨1, ![R]⟩ [] [0] [0] 1) (r : Fin R) :
    (vecScatterDims N R wf).window (ix1 r) 0 = 0 := by
  unfold ScatterDims.window
  rw [dif_neg (vs_not_mem_sKept wf)]

/-- On the operand's axis the window starts at update `r`'s index `idx[r, 0]`, read signed. -/
theorem vs_start {N R w : Nat}
    (wf : ScatterDims.WF ⟨1, ![N]⟩ ⟨2, ![R, 1]⟩ ⟨1, ![R]⟩ [] [0] [0] 1)
    (idx : IVec ⟨2, ![R, 1]⟩ w) (r : Fin R) :
    (vecScatterDims N R wf).start (ix1 r) idx 0 = (idx (ix2 r (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 r) ⟨List.idxOf (0 : Fin 1) (vecScatterDims N R wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update element `r` lands on operand element `n` iff `r`'s index, read signed, is `n`. -/
theorem vecScatter_resultIdx_iff {N R w : Nat}
    (wf : ScatterDims.WF ⟨1, ![N]⟩ ⟨2, ![R, 1]⟩ ⟨1, ![R]⟩ [] [0] [0] 1)
    (idx : IVec ⟨2, ![R, 1]⟩ w) (r : Fin R) (n : Fin N) :
    (vecScatterDims N R wf).resultIdx? (ix1 r) idx = some (ix1 n)
      ↔ (idx (ix2 r (0 : Fin 1))).toInt = (n.val : Int) := by
  unfold ScatterDims.resultIdx?
  have hN : (![N] 0 : Nat) = N := rfl
  have hn := n.isLt
  simp only [Fin.forall_fin_one, vs_start, vs_window]
  split
  · rw [Option.some.injEq]
    constructor
    · intro he
      have e0 : ((vecScatterDims N R wf).start (ix1 r) idx 0
          + ((vecScatterDims N R wf).window (ix1 r) 0 : Nat)).toNat = n.val :=
        congrArg (fun f => (f 0).val) he
      rw [vs_start, vs_window] at e0
      omega
    · intro e0
      funext a
      refine Fin.ext ?_
      match a with
      | ⟨0, _⟩ =>
        show ((vecScatterDims N R wf).start (ix1 r) idx 0
          + ((vecScatterDims N R wf).window (ix1 r) 0 : Nat)).toNat = n.val
        rw [vs_start, vs_window]; omega
  · rename_i h
    constructor
    · intro he; cases he
    · intro e0
      exact absurd ⟨by omega, by omega⟩ h

/-- THE VECTOR SCATTER-ADD READ AT `n` on the extended reals: the operand's element plus the sum of the updates whose
    index is `n`. -/
theorem vecScatterAdd_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Ideal.hostScatterAdd (vecScatterDims N R wf) x idx upd (ix1 n)
      = x (ix1 n) + ∑ r : Fin R, if (idx (ix2 r (0 : Fin 1))).toInt = (n.val : Int) then upd (ix1 r) else 0 := by
  show x (ix1 n) + ∑ j ∈ Finset.univ.filter
      (fun j => (vecScatterDims N R wf).resultIdx? j idx = some (ix1 n)), upd j = _
  congr 1
  rw [Finset.sum_filter, ← Equiv.sum_comp (idxEquiv1 (n := R)).symm]
  refine Finset.sum_congr rfl (fun r _ => ?_)
  show (if (vecScatterDims N R wf).resultIdx? (ix1 r) idx = some (ix1 n) then upd (ix1 r) else 0) = _
  simp only [vecScatter_resultIdx_iff]

end VecScatterAdd

end Idealize.ShloMosaic.ValueIdx

end
-- ==== Proof.LibKeepdims.lean ====
/-
  General layout reads for a reduction that keeps its axis (`keepdims=True`), stated over any extents:
  a vector `[a]` cast to a column `[a, 1]`, a column `[a, 1]` broadcast across `[a, b]`, and a lane sum of an
  `[a, b]` vector along its second axis read at a row as the sum over that row's columns.
  With the library's row broadcast `[1, b] → [a, b]` these are the index reads of a row-wise normalisation in a kernel
  body. The second part has the same reads in the host's spelling: `broadcast_in_dim` of a scalar, of a vector onto
  a column or a row, of a column or a row across a matrix, and the host's row sum with its initial value.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` vector along its second axis, read at row `p` on the extended reals, is the sum of
    that row's entries. The accumulator word and the reduction's two side conditions are variables, so the lemma meets a
    printed reduction however its evidence is spelt. -/
theorem rowSum_apply {a b : ℕ} (src : FVec Ideal ⟨2, ![a, b]⟩ .f32)
    (acc : BitVec FTy.f32.bits) (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-! ## The host's forms: `broadcast_in_dim` along named axes, and the host's sum -/

/-- A rank-0 array (a scalar constant) broadcast to any shape reads the scalar everywhere. -/
theorem broadcastInDim_scalar_apply {t : Shape} (c : (⟨0, ![]⟩ : Shape).Idx → α)
    (h : (⟨0, ![]⟩ : Shape).BroadcastsInDim t (![] : Fin 0 → Fin t.rank)) (j : t.Idx) :
    broadcastInDim t ![] h c j = c ix0 :=
  broadcastInDim_apply _ h c j ix0 (fun ax => ax.elim0)

/-- An `[a]` array placed on axis 0 of the column `[a, 1]` reads, at `(r, u)`, the operand at `r`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column `[a, 1]` broadcast in place to `[a, b]` reads, at `(r, j)`, the column's entry of row `r`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ => rfl

/-- A `[b]` array placed on axis 1 of the row `[1, b]` reads, at `(u, j)`, the operand at `j`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (j : Fin b) : broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row `[1, b]` broadcast in place to `[a, b]` reads, at `(r, j)`, the row's entry of column `j`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ => rfl
  | ⟨1, _⟩ =>
    show j.val = if b = 1 then 0 else j.val
    split
    · have := j.isLt; omega
    · rfl

/-- The host's float sum of an `[a, b]` array along its second axis, read at row `r` on the extended reals: the
    initial scalar plus the sum of the row's entries. -/
theorem hostRowSum_apply {a b : ℕ} (X : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd X init h' hu (ix1 r) = init ix0 + ∑ k : Fin b, X (ix2 r k) := by
  unfold Host.reduceAdd
  refine (Ideal.hostReduceAdd_single h' h X _ (ix1 r)).trans ?_
  refine congrArg₂ (· + ·) (congrArg init (funext fun ax => ax.elim0)) (Finset.sum_congr rfl fun k _ => ?_)
  exact congrArg X (funext fun ax => Fin.ext (by
    match ax with
    | ⟨0, _⟩ => rfl
    | ⟨1, _⟩ => rfl))

end Cert.LibKeepdims

end
-- ==== Proof.NodeSum.lean ====
/-
  The squared net current per node is the same whether the outgoing currents are subtracted as one sum or added negated
  one by one in a single scatter sum.

  Fix a node n. The reference's net current is A - S with A the sum of the currents of the edges into n and S the sum of
  the currents of the edges out of n. The single scatter sum over the concatenated updates is A + T with T the sum of the
  negated currents of the edges out of n. On the extended reals T is -S, unless a partial sum met an infinity of each
  sign; then S and T are both the bottom element, A + T is bottom, A - S is A + top, which is bottom or top, and the
  squares are both top.
-/
import proofs.«425219_j38010460570135_2_alg».proof.Proof.Spec
import proofs.«425219_j38010460570135_2_alg».proof.Proof.LibVecScatterAdd
import proofs.«425219_j38010460570135_2_alg».proof.Proof.LibKeepdims
import Mathlib.Data.EReal.Operations
import Mathlib.Algebra.BigOperators.Fin

noncomputable section

namespace Cert.NodeSum

open Idealize.ShloMosaic Idealize.ShloMosaic.ValueIdx Cert.Spec

/-! ## Negating a sum of extended reals term by term -/

/-- Negating a finite sum of extended reals term by term: either the sum of the negatives is the negative of the
    sum, or both sums are `⊥` (some partial sum met `⊤ + ⊥`, which is `⊥` in either order). -/
theorem neg_sum_or_bot {ι : Type*} (s : Finset ι) (f : ι → EReal) :
    (-(∑ e ∈ s, f e) = ∑ e ∈ s, -f e) ∨ ((∑ e ∈ s, f e) = ⊥ ∧ (∑ e ∈ s, -f e) = ⊥) := by
  classical
  refine Finset.induction_on s ?_ ?_
  · left; simp
  · intro a s ha ih
    rw [Finset.sum_insert ha, Finset.sum_insert ha]
    rcases ih with ih | ⟨h1, h2⟩
    · rw [← ih]
      by_cases c1 : f a = ⊥ ∧ (∑ e ∈ s, f e) = ⊤
      · right
        rw [c1.1, c1.2]
        refine ⟨EReal.bot_add _, ?_⟩
        rw [EReal.neg_bot, EReal.neg_top]; exact EReal.add_bot _
      · by_cases c2 : f a = ⊤ ∧ (∑ e ∈ s, f e) = ⊥
        · right
          rw [c2.1, c2.2]
          refine ⟨EReal.add_bot _, ?_⟩
          rw [EReal.neg_top]; exact EReal.bot_add _
        · left
          rw [EReal.neg_add (by tauto) (by tauto), sub_eq_add_neg]
    · right
      rw [h1, h2]
      exact ⟨EReal.add_bot _, EReal.add_bot _⟩

/-- Adding the negated terms one by one, or subtracting their sum: the squares agree. -/
theorem sq_add_sum_neg {ι : Type*} (s : Finset ι) (f : ι → EReal) (A : EReal) :
    (A + ∑ e ∈ s, -f e) * (A + ∑ e ∈ s, -f e) = (A - ∑ e ∈ s, f e) * (A - ∑ e ∈ s, f e) := by
  rcases neg_sum_or_bot s f with h | ⟨h1, h2⟩
  · rw [← h, ← sub_eq_add_neg]
  · rw [h1, h2, EReal.add_bot, EReal.bot_mul_bot]
    by_cases hA : A = ⊥
    · rw [hA, EReal.bot_sub, EReal.bot_mul_bot]
    · rw [EReal.sub_bot hA, EReal.top_mul_top]

/-! ## The two programs' net currents read at a node -/

/-- The first half of a concatenation of two length-3200000 vectors is the first vector. -/
theorem cat_left {α : Type} (a b : TE.Idx → α) (e : Fin 3200000) :
    concatenate TD 0 [⟨TE, a⟩, ⟨TE, b⟩] e_cat (ix1 (Fin.castAdd 3200000 e : Fin 6400000)) = a (ix1 e) :=
  concatenate_pair_apply_left 0 a b e_cat _ rfl (ix1 e) (fun c => by match c with | ⟨0, _⟩ => rfl)

/-- The second half of a concatenation of two length-3200000 vectors is the second vector. -/
theorem cat_right {α : Type} (a b : TE.Idx → α) (e : Fin 3200000) :
    concatenate TD 0 [⟨TE, a⟩, ⟨TE, b⟩] e_cat (ix1 (Fin.natAdd 3200000 e : Fin 6400000)) = b (ix1 e) :=
  concatenate_pair_apply_right 0 a b e_cat _ rfl rfl (ix1 e)
    (fun c hc => by match c with | ⟨0, _⟩ => exact absurd rfl hc)
    (by show e.val + 3200000 = 3200000 + e.val; omega)

/-- A sum over 6400000 indices is the sum over the first 3200000 plus the sum over the last 3200000. -/
theorem sum_halves (G : Fin 6400000 → EReal) :
    ∑ r : Fin 6400000, G r
      = (∑ e : Fin 3200000, G (Fin.castAdd 3200000 e : Fin 6400000))
        + ∑ e : Fin 3200000, G (Fin.natAdd 3200000 e : Fin 6400000) :=
  Fin.sum_univ_add (a := 3200000) (b := 3200000) G

/-- The zero vector over the nodes reads `0` everywhere. -/
theorem zeroN_apply (j : TN.Idx) : (zeroN : FVec Ideal TN .f32) j = 0 := by
  show Ideal.ofBits .f32 0x00000000#32 = 0
  exact Ideal.ofBits_zero_f32

/-- The segment-sum scatter of the edges, in the general vector scatter's dimension numbers. -/
theorem sdE_eq : sdE = vecScatterDims 100000 3200000 e_sE := rfl

/-- The segment-sum scatter of the doubled edge list, in the general vector scatter's dimension numbers. -/
theorem sdD_eq : sdD = vecScatterDims 100000 6400000 e_sD := rfl

/-- The reference's scatter sum is the exact scatter sum onto zeros. -/
theorem scatE_eq (i : IVec TE 32) (u : FVec Ideal TE .f32) :
    scatE i u = Ideal.hostScatterAdd sdE (zeroN : FVec Ideal TN .f32) (col i) u := by
  unfold scatE Host.scatterAdd
  exact Ideal.hostScatterAdd_def _ _ _ _ _

/-- The kernel's net current is the exact scatter sum of the concatenated updates onto zeros. -/
theorem nsK_eq (ei : IVec TI 32) (cur : FVec Ideal TE .f32) :
    nsK ei cur = Ideal.hostScatterAdd sdD (zeroN : FVec Ideal TN .f32)
      (broadcastInDim TD1 ![0] e_bD1 (catI (dstOf ei) (srcOf ei))) (catF cur (Host.negf cur)) := by
  unfold nsK Host.scatterAdd
  exact Ideal.hostScatterAdd_def _ _ _ _ _

/-- A vector of 3200000 indices as a column reads the vector. -/
theorem col_apply (i : IVec TE 32) (e : Fin 3200000) : col i (ix2 e (0 : Fin 1)) = i (ix1 e) :=
  Cert.LibKeepdims.broadcastInDim_a_a1_apply i e_bE1 e 0

/-- A vector of 6400000 indices as a column reads the vector. -/
theorem colD_apply (x : IVec TD 32) (r : Fin 6400000) :
    broadcastInDim TD1 ![0] e_bD1 x (ix2 r (0 : Fin 1)) = x (ix1 r) :=
  Cert.LibKeepdims.broadcastInDim_a_a1_apply x e_bD1 r 0

/-- The reference's scatter sum at node `n`: the sum of the updates whose index is `n`. -/
theorem scatE_apply (i : IVec TE 32) (u : FVec Ideal TE .f32) (n : Fin 100000) :
    scatE i u (ix1 n) = ∑ e : Fin 3200000, if (i (ix1 e)).toInt = (n.val : Int) then u (ix1 e) else 0 := by
  rw [scatE_eq, sdE_eq]
  refine (vecScatterAdd_apply e_sE _ _ _ n).trans ?_
  rw [zeroN_apply, zero_add]
  refine Finset.sum_congr rfl fun e _ => ?_
  rw [col_apply]

/-- The kernel's single scatter sum at node `n`, before the concatenations are read. -/
theorem nsK_apply0 (ei : IVec TI 32) (cur : FVec Ideal TE .f32) (n : Fin 100000) :
    nsK ei cur (ix1 n) = ∑ r : Fin 6400000,
      if (catI (dstOf ei) (srcOf ei) (ix1 r)).toInt = (n.val : Int) then catF cur (Host.negf cur) (ix1 r) else 0 := by
  rw [nsK_eq, sdD_eq]
  refine (vecScatterAdd_apply e_sD _ _ _ n).trans ?_
  rw [zeroN_apply, zero_add]
  refine Finset.sum_congr rfl fun r _ => ?_
  rw [colD_apply]

/-- The kernel's single scatter sum at node `n`: what flows in, plus the negated outflows one by one. -/
theorem nsK_apply (ei : IVec TI 32) (cur : FVec Ideal TE .f32) (n : Fin 100000) :
    nsK ei cur (ix1 n)
      = (∑ e : Fin 3200000, if (dstOf ei (ix1 e)).toInt = (n.val : Int) then cur (ix1 e) else 0)
        + ∑ e : Fin 3200000, -(if (srcOf ei (ix1 e)).toInt = (n.val : Int) then cur (ix1 e) else 0) := by
  rw [nsK_apply0, sum_halves]
  refine congrArg₂ (· + ·) (Finset.sum_congr rfl fun e _ => ?_) (Finset.sum_congr rfl fun e _ => ?_)
  · have h1 : catI (dstOf ei) (srcOf ei) (ix1 (Fin.castAdd 3200000 e : Fin 6400000)) = dstOf ei (ix1 e) :=
      cat_left _ _ e
    have h2 : catF cur (Host.negf cur) (ix1 (Fin.castAdd 3200000 e : Fin 6400000)) = cur (ix1 e) :=
      cat_left _ _ e
    rw [h1, h2]
  · have h1 : catI (dstOf ei) (srcOf ei) (ix1 (Fin.natAdd 3200000 e : Fin 6400000)) = srcOf ei (ix1 e) :=
      cat_right _ _ e
    have h2 : catF cur (Host.negf cur) (ix1 (Fin.natAdd 3200000 e : Fin 6400000)) = -(cur (ix1 e)) :=
      cat_right _ _ e
    rw [h1, h2]
    by_cases hc : (srcOf ei (ix1 e)).toInt = (n.val : Int)
    · rw [if_pos hc, if_pos hc]
    · rw [if_neg hc, if_neg hc, neg_zero]

/-- The reference's net current at node `n`: the inflow sum minus the outflow sum. -/
theorem nsR_apply (ei : IVec TI 32) (cur : FVec Ideal TE .f32) (n : Fin 100000) :
    nsR ei cur (ix1 n)
      = (∑ e : Fin 3200000, if (dstOf ei (ix1 e)).toInt = (n.val : Int) then cur (ix1 e) else 0)
        - ∑ e : Fin 3200000, if (srcOf ei (ix1 e)).toInt = (n.val : Int) then cur (ix1 e) else 0 := by
  unfold nsR
  rw [subf_apply, scatE_apply, scatE_apply]

/-- The squares of the two net currents agree at every node. -/
theorem nodeSum_sq (ei : IVec TI 32) (cur : FVec Ideal TE .f32) :
    mulf (nsK ei cur) (nsK ei cur) = mulf (nsR ei cur) (nsR ei cur) := by
  funext j
  obtain ⟨n, rfl⟩ : ∃ n : Fin 100000, j = ix1 n := ⟨j 0, eq_ix1 j⟩
  rw [mulf_apply, mulf_apply, nsK_apply, nsR_apply]
  exact sq_add_sum_neg Finset.univ
    (fun e : Fin 3200000 => if (srcOf ei (ix1 e)).toInt = (n.val : Int) then cur (ix1 e) else 0) _

end Cert.NodeSum

end
-- ==== Proof.LibTileSum.lean ====
/-
  Pure finite-sum reindexing over an additive commutative monoid (only commutativity and associativity of `+` and the
  neutral `0` are used: no subtraction, no cancellation).

  * `sum_fin_mul`: a sum over `[0, m·n)` is the double sum over the quotient `a < m` and the remainder `b < n` of the
    position `a·n + b`.
  * `sum_tiles`: a length-`T·(P·Q)` vector read as `T` tiles, each tile read row-major as `P` rows of `Q` lanes and summed
    down its rows, the `T × Q` partial sums then all added, is the sum of the whole vector.
  * `sum_below`: a sum over `[0, M₁)` of a function that is zero from `M₀` on is the sum over `[0, M₀)`.
  * `sum_first_rows`: an array of `T·S` rows of `Q` lanes whose only non-zero rows are the rows `t·S` sums to the sum of
    those rows.
-/
import Idealize.ShloMosaic.Lib.ValueIdx
import Mathlib.Algebra.BigOperators.Fin
import Mathlib.Data.Fintype.BigOperators
import Mathlib.Logic.Equiv.Fin.Basic

open scoped BigOperators

namespace Idealize.ShloMosaic.ValueIdx

open Idealize.ShloMosaic

/-- Position `a·n + b` with `a < m` and `b < n` lies below `m·n`: `a·n + b < a·n + n = (a+1)·n ≤ m·n`. -/
theorem mul_add_lt_mul {m n : Nat} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right _ a.isLt

/-- Position `t·(P·Q) + (p·Q + q)` with `t < T`, `p < P`, `q < Q` lies below `T·(P·Q)`: the inner position `p·Q + q` is
    below `P·Q`, and then the outer one is below `T·(P·Q)`. -/
theorem tile_pos_lt {T P Q : Nat} (t : Fin T) (p : Fin P) (q : Fin Q) :
    t.val * (P * Q) + (p.val * Q + q.val) < T * (P * Q) :=
  mul_add_lt_mul t (⟨p.val * Q + q.val, mul_add_lt_mul p q⟩ : Fin (P * Q))

/-- The first row `t·S` of the `t`-th group of `S` rows lies below `T·S` when a group is not empty. -/
theorem mul_lt_mul_fin {T S : Nat} (hS : 0 < S) (t : Fin T) : t.val * S < T * S :=
  mul_add_lt_mul t (⟨0, hS⟩ : Fin S)

/-- A sum over `[0, m·n)` is the double sum over quotient `a < m` and remainder `b < n` of the position `a·n + b`
    (the bijection `(a, b) ↦ a·n + b` between the product of the two ranges and `[0, m·n)`). -/
theorem sum_fin_mul {M : Type*} [AddCommMonoid M] (m n : Nat) (f : Fin (m * n) → M) :
    ∑ j : Fin (m * n), f j = ∑ a : Fin m, ∑ b : Fin n, f ⟨a.val * n + b.val, mul_add_lt_mul a b⟩ := by
  rw [← Equiv.sum_comp (finProdFinEquiv (m := m) (n := n)) f, Fintype.sum_prod_type]
  refine Finset.sum_congr rfl fun a _ => Finset.sum_congr rfl fun b _ => congrArg f (Fin.ext ?_)
  show b.val + n * a.val = a.val * n + b.val
  rw [Nat.add_comm, Nat.mul_comm]

/-- A length-`T·(P·Q)` vector read as `T` tiles, each tile read row-major as `P` rows of `Q` lanes (element `(p, q)` of
    tile `t` is position `t·(P·Q) + (p·Q + q)`) and summed down its rows, the `T × Q` partial sums then all added, is the
    sum of the whole vector: split the position into tile and offset, the offset into row and lane, and exchange the
    row sum with the lane sum. -/
theorem sum_tiles {M : Type*} [AddCommMonoid M] (T P Q : Nat) (g : Fin (T * (P * Q)) → M) :
    ∑ t : Fin T, ∑ q : Fin Q, ∑ p : Fin P,
        g ⟨t.val * (P * Q) + (p.val * Q + q.val), by exact tile_pos_lt t p q⟩ =
      ∑ j : Fin (T * (P * Q)), g j := by
  rw [sum_fin_mul T (P * Q) g]
  refine Finset.sum_congr rfl fun t _ => ?_
  rw [sum_fin_mul P Q (fun r : Fin (P * Q) => g ⟨t.val * (P * Q) + r.val, mul_add_lt_mul t r⟩)]
  exact Finset.sum_comm

/-- A sum over `[0, M₁)` of a function that is `h` below `M₀` and zero from `M₀` on is the sum of `h` over `[0, M₀)`:
    write `M₁ = M₀ + k`, split the range at `M₀`, and drop the zero part. -/
theorem sum_below {M : Type*} [AddCommMonoid M] {M₀ M₁ : Nat} (h01 : M₀ ≤ M₁) (h : Fin M₀ → M) :
    ∑ j : Fin M₁, (if hj : j.val < M₀ then h ⟨j.val, hj⟩ else 0) = ∑ v : Fin M₀, h v := by
  obtain ⟨k, rfl⟩ := Nat.exists_eq_add_of_le h01
  rw [Fin.sum_trunc]
  · refine Finset.sum_congr rfl fun v _ => ?_
    have hv : (Fin.castAdd k v).val < M₀ := v.isLt
    rw [dif_pos hv]
    exact congrArg h (Fin.ext rfl)
  · intro j
    have hj : ¬ (Fin.natAdd M₀ j).val < M₀ := by
      show ¬ M₀ + j.val < M₀
      exact Nat.not_lt.mpr (Nat.le_add_right _ _)
    rw [dif_neg hj]

/-- An array of `T·S` rows of `Q` lanes (`S > 0`) whose row `t·S` is `f t` and whose other rows `t·S + s`, `s ≠ 0`, are
    zero sums to the sum of the `f t q`: split the row into group `t` and offset `s`, and in each group only the
    offset `0` contributes. -/
theorem sum_first_rows {M : Type*} [AddCommMonoid M] (T S Q : Nat) (hS : 0 < S)
    (out : (⟨2, ![T * S, Q]⟩ : Shape).Idx → M) (f : Fin T → Fin Q → M)
    (h0 : ∀ (t : Fin T) (q : Fin Q), out (ix2 ⟨t.val * S, by exact mul_lt_mul_fin hS t⟩ q) = f t q)
    (hz : ∀ (t : Fin T) (s : Fin S) (q : Fin Q), s.val ≠ 0 →
      out (ix2 ⟨t.val * S + s.val, by exact mul_add_lt_mul t s⟩ q) = 0) :
    ∑ j, out j = ∑ t : Fin T, ∑ q : Fin Q, f t q := by
  rw [sum_idx2, sum_fin_mul T S (fun a : Fin (T * S) => ∑ b : Fin Q, out (ix2 a b))]
  refine Finset.sum_congr rfl fun t _ => ?_
  rw [Finset.sum_eq_single (⟨0, hS⟩ : Fin S)]
  · exact Finset.sum_congr rfl fun q _ => h0 t q
  · intro s _ hs
    have hs0 : s.val ≠ 0 := fun e => hs (Fin.ext e)
    exact Finset.sum_eq_zero fun q _ => hz t s q hs0
  · intro hn
    exact absurd (Finset.mem_univ _) hn

end Idealize.ShloMosaic.ValueIdx
-- ==== Proof.LibERealCoe.lean ====
/-
  Reals inside the extended reals: the coercion goes through finite sums and maxima, and the ideal division
  of a real by a real clamped below by one is the real quotient.
-/
import Idealize.ShloMosaic.PureOps.Ideal
import Mathlib.Data.EReal.Basic
import Mathlib.Data.EReal.Operations
import Mathlib.Algebra.BigOperators.Group.Finset.Basic
import Mathlib.Tactic.Linarith

noncomputable section

open scoped BigOperators

namespace Cert.ERealCoe

open Idealize.ShloMosaic

/-- The coercion of a finite sum of reals is the sum of the coercions (induction on the index set, the
coercion being additive). -/
theorem coe_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The coercion of a maximum of reals is the maximum of the coercions (the coercion is monotone). -/
theorem coe_max (a b : ℝ) : ((max a b : ℝ) : EReal) = max (a : EReal) (b : EReal) :=
  EReal.coe_strictMono.monotone.map_max

/-- The ideal division of a real by a real clamped below by one (so not zero) is the real quotient. -/
theorem div_coe_max_one (a n : ℝ) :
    Ideal.div (a : EReal) ((max n 1 : ℝ) : EReal) = ((a * (1 / max n 1) : ℝ) : EReal) := by
  have h : max n 1 ≠ 0 := by
    have := le_max_right n 1
    linarith
  rw [Ideal.div_coe h, ← EReal.coe_mul]

end Cert.ERealCoe

end
-- ==== Proof.Stats.lean ====
/-
  The splatted per-tile sums, added over all of [5, 8, 128] and divided by 1024, are the sum of the whole vector.
-/
import proofs.«425219_j38010460570135_2_alg».proof.Proof.Spec
import proofs.«425219_j38010460570135_2_alg».proof.Proof.LibTileSum
import proofs.«425219_j38010460570135_2_alg».proof.Proof.LibERealCoe
import Idealize.ShloMosaic.PureOps.Ideal.Laws
import Idealize.ShloMosaic.Lib.Pipeline.Value
import Mathlib.Tactic.Ring
import Mathlib.Tactic.NormNum

noncomputable section

open scoped BigOperators

namespace Cert.Stats

open Idealize.ShloMosaic Idealize.ShloMosaic.ValueIdx Cert.Spec

/-- The pattern 0x44800000 denotes the real 1024. -/
theorem ofBits_1024 : Ideal.ofBits .f32 0x44800000#32 = ((1024 : ℝ) : EReal) := by
  simp [Ideal.ofBits, Ideal.ieee, -EReal.coe_mul]; norm_num

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over `[0, N)` with `N = m·n` is the double sum over quotient and remainder. -/
theorem sum_fin_of_eq_mul {M : Type*} [AddCommMonoid M] {N : Nat} (m n : Nat) (h : N = m * n) (f : Fin N → M) :
    ∑ j : Fin N, f j = ∑ a : Fin m, ∑ b : Fin n, f ⟨a.val * n + b.val, h ▸ mul_add_lt_mul a b⟩ := by
  subst h
  exact sum_fin_mul m n f

/-- Lane `l` of row `R` of the [25000, 128] layout is position `R·128 + l` of the flat vector. -/
theorem pos_lt (R : Fin 25000) (l : Fin 128) : R.val * 128 + l.val < 3200000 := by
  have := R.isLt; have := l.isLt; omega

theorem to2d_apply (a : FVec Ideal TE .f32) (R : Fin 25000) (l : Fin 128) :
    to2d a (ix2 R l) = a (ix1 ⟨R.val * 128 + l.val, pos_lt R l⟩) := by
  unfold to2d
  refine shapeCast_apply _ _ _ _ ?_
  rw [Shape.rowMajor_val_one, Shape.rowMajor_val_two]
  rfl

/-- The division of the grand total by 1024, read at the one index of the rank-0 result. -/
theorem sumK_eq (st : FVec Ideal TS .f32) :
    sumK (F := Ideal) st = fun _ => Ideal.div (∑ j : TS.Idx, st j) ((1024 : ℝ) : EReal) := by
  funext j
  unfold sumK Host.divf Host.reduceAdd
  show Ideal.div (Ideal.hostReduceAdd e_rS st (Ideal.ofBits .f32 0x00000000#32) j) (Ideal.ofBits .f32 0x44800000#32) = _
  rw [Ideal.hostReduceAdd_total e_rS (fun b => b.elim0), Ideal.ofBits_zero_f32, zero_add, ofBits_1024]

/-- The real sum of tile `t` of a flat vector of reals: over its 5000 rows and 128 lanes. -/
def tileSum (g : TE.Idx → ℝ) (t : Fin 5) : ℝ :=
  ∑ r : Fin 5000, ∑ l : Fin 128, g (ix1 ⟨(rowOf t r).val * 128 + l.val, pos_lt _ _⟩)

/-- The per-tile sum of a vector of reals is that real sum. -/
theorem statK_real (g : TE.Idx → ℝ) (a : FVec Ideal TE .f32) (h : ∀ e, a e = ((g e : ℝ) : EReal)) (j : TS.Idx) :
    statK (to2d a) j = ((tileSum g (j 0) : ℝ) : EReal) := by
  unfold statK tileSum
  rw [sum_idx2, Cert.ERealCoe.coe_sum]
  refine Finset.sum_congr rfl fun r _ => ?_
  rw [Cert.ERealCoe.coe_sum]
  refine Finset.sum_congr rfl fun l _ => ?_
  exact (to2d_apply a (rowOf (j 0) r) l).trans (h _)

/-- Five tiles of 5000 rows of 128 lanes exhaust the flat vector. -/
theorem tile_sum (g : TE.Idx → ℝ) : ∑ t : Fin 5, tileSum g t = ∑ e, g e := by
  unfold tileSum
  rw [sum_idx1, sum_fin_of_eq_mul 25000 128 (by norm_num) (fun p : Fin 3200000 => g (ix1 p)),
    sum_fin_of_eq_mul 5 5000 (by norm_num)
      (fun R : Fin 25000 => ∑ l : Fin 128, g (ix1 ⟨R.val * 128 + l.val, pos_lt R l⟩))]
  rfl

/-- A function of the tile alone summed over all of [5, 8, 128] is 1024 times its sum over the tiles. -/
theorem sum_splat (S : Fin 5 → ℝ) : ∑ j : TS.Idx, S (j 0) = 1024 * ∑ t, S t := by
  rw [sum_idx3 (fun j : TS.Idx => S (j 0)), Finset.mul_sum]
  refine Finset.sum_congr rfl fun t _ => ?_
  show ∑ _b : Fin 8, ∑ _c : Fin 128, S t = _
  simp only [Finset.sum_const, Finset.card_univ, Fintype.card_fin, nsmul_eq_mul]
  push_cast
  ring

theorem sumK_statK_real (g : TE.Idx → ℝ) (a : FVec Ideal TE .f32) (h : ∀ e, a e = ((g e : ℝ) : EReal)) :
    sumK (F := Ideal) (statK (to2d a)) = fun _ => ((∑ e, g e : ℝ) : EReal) := by
  rw [sumK_eq]
  funext _
  rw [Finset.sum_congr rfl fun j _ => statK_real g a h j, ← Cert.ERealCoe.coe_sum,
    Ideal.div_coe (by norm_num : (1024 : ℝ) ≠ 0), ← EReal.coe_mul, sum_splat, tile_sum]
  rw [show (1024 * ∑ e, g e) * (1 / 1024) = ∑ e, g e by ring]

theorem sumK_statK (a : FVec Ideal TE .f32) (ha : ∀ e, ∃ r : ℝ, a e = (r : EReal)) :
    sumK (F := Ideal) (statK (to2d a)) = fun _ => ((∑ e, (a e).toReal : ℝ) : EReal) :=
  sumK_statK_real (fun e => (a e).toReal) a fun e => by
    obtain ⟨r, hr⟩ := ha e
    rw [hr, EReal.toReal_coe]

theorem sumK_statK_sq (a : FVec Ideal TE .f32) (ha : ∀ e, ∃ r : ℝ, a e = (r : EReal)) :
    sumK (F := Ideal) (statK (mulf (to2d a) (to2d a))) = fun _ => ((∑ e, (a e).toReal ^ 2 : ℝ) : EReal) := by
  have hm : mulf (to2d a) (to2d a) = to2d (mulf a a) := rfl
  rw [hm]
  refine sumK_statK_real (fun e => (a e).toReal ^ 2) (mulf a a) fun e => ?_
  obtain ⟨r, hr⟩ := ha e
  rw [mulf_apply, hr, EReal.toReal_coe, pow_two, EReal.coe_mul]

end Cert.Stats

end
-- ==== Proof.Var.lean ====
/-
  The mean of the two unbiased column variances, from the column sums and sums of squares, is the reference's.
-/
import proofs.«425219_j38010460570135_2_alg».proof.Proof.Spec
import proofs.«425219_j38010460570135_2_alg».proof.Proof.LibERealCoe
import proofs.«425219_j38010460570135_2_alg».proof.Proof.LibKeepdims
import Idealize.ShloMosaic.PureOps.Ideal.Laws
import Idealize.ShloMosaic.Lib.ValueIdxRank1
import Mathlib.Tactic.FieldSimp
import Mathlib.Tactic.Ring

noncomputable section

namespace Cert.Var

open Idealize.ShloMosaic Cert.Spec

section Aux

open Idealize.ShloMosaic.ValueIdx Cert.LibKeepdims

/-! ## The three float literals, and a quotient of reals -/

/-- The word 0x4A435000 denotes 3200000. -/
theorem c_n : Ideal.ofBits .f32 0x4A435000#32 = ((3200000 : ℝ) : EReal) := by
  simp [Ideal.ofBits, Ideal.ieee, -EReal.coe_mul]; norm_num

/-- The word 0x3F800000 denotes 1. -/
theorem c_one : Ideal.ofBits .f32 0x3F800000#32 = ((1 : ℝ) : EReal) := by
  simp [Ideal.ofBits, Ideal.ieee, -EReal.coe_mul]; norm_num

/-- The word 0x40000000 denotes 2. -/
theorem c_two : Ideal.ofBits .f32 0x40000000#32 = ((2 : ℝ) : EReal) := by
  simp [Ideal.ofBits, Ideal.ieee, -EReal.coe_mul]; norm_num

/-- The quotient of two reals on the extended reals, the divisor not zero, is the real quotient. -/
theorem div_coe_coe (a b : ℝ) (hb : b ≠ 0) : Ideal.div (a : EReal) (b : EReal) = ((a / b : ℝ) : EReal) := by
  rw [Ideal.div_coe hb, ← EReal.coe_mul, mul_one_div]

/-! ## The real identity -/

/-- Over an index set of N elements, the centred sum of squares over N - 1 is
    (mean of squares - square of mean) * (N / (N - 1)): expand (x - m)^2 = x^2 - 2 m x + m^2 with m = S / N and sum,
    which leaves S2 - S^2 / N. -/
theorem var_identity {ι : Type*} [Fintype ι] (x : ι → ℝ) (N : ℝ) (hcard : (Fintype.card ι : ℝ) = N)
    (h0 : N ≠ 0) (h1 : N - 1 ≠ 0) :
    (∑ i, (x i - (∑ k, x k) / N) ^ 2) / (N - 1)
      = ((∑ i, x i ^ 2) / N - ((∑ i, x i) / N) * ((∑ i, x i) / N)) * (N / (N - 1)) := by
  have hexp : ∑ i, (x i - (∑ k, x k) / N) ^ 2 = (∑ i, x i ^ 2) - (∑ i, x i) ^ 2 / N := by
    have hsq : ∀ i, (x i - (∑ k, x k) / N) ^ 2
        = x i ^ 2 - 2 * ((∑ k, x k) / N) * x i + ((∑ k, x k) / N) ^ 2 := fun i => by ring
    simp only [hsq]
    rw [Finset.sum_add_distrib, Finset.sum_sub_distrib, ← Finset.mul_sum, Finset.sum_const, Finset.card_univ,
      nsmul_eq_mul, hcard]
    field_simp
    ring
  rw [hexp]
  field_simp

/-! ## The two columns read at an edge -/

/-- Column 0 of the edge parameters read at an edge. -/
theorem rOf_apply (ep : FVec Ideal TE2 .f32) (e : Fin 3200000) : rOf ep (ix1 e) = ep (ix2 e (0 : Fin 2)) := by
  unfold rOf
  refine (shapeCast_apply _ e_cP (ix1 e) (ix2 e (0 : Fin 1)) ?_).trans ?_
  · rw [Shape.rowMajor_val_two, Shape.rowMajor_val_one]
    show e.val * 1 + 0 = e.val
    omega
  · refine extractStridedSlice_apply _ ep e_slP0 _ _ fun a => ?_
    match a with
    | ⟨0, _⟩ => show e.val = 0 + e.val; omega
    | ⟨1, _⟩ => rfl

/-- Column 1 of the edge parameters read at an edge. -/
theorem xOf_apply (ep : FVec Ideal TE2 .f32) (e : Fin 3200000) : xOf ep (ix1 e) = ep (ix2 e (1 : Fin 2)) := by
  unfold xOf
  refine (shapeCast_apply _ e_cP (ix1 e) (ix2 e (0 : Fin 1)) ?_).trans ?_
  · rw [Shape.rowMajor_val_two, Shape.rowMajor_val_one]
    show e.val * 1 + 0 = e.val
    omega
  · refine extractStridedSlice_apply _ ep e_slP1 _ _ fun a => ?_
    match a with
    | ⟨0, _⟩ => show e.val = 0 + e.val; omega
    | ⟨1, _⟩ => rfl

/-! ## The kernel's side -/

/-- One column's variance as the kernel takes it, from the column's sum and sum of squares. -/
def vK (S S2 : ℝ) : ℝ := (S2 / 3200000 - S / 3200000 * (S / 3200000)) * (3200000 / (3200000 - 1))

theorem varK_coe (S S2 : ℝ) (i : T0.Idx) :
    varK (F := Ideal) (fun _ => ((S : ℝ) : EReal)) (fun _ => ((S2 : ℝ) : EReal)) i = ((vK S S2 : ℝ) : EReal) := by
  show (Ideal.div (S2 : EReal) (Ideal.ofBits .f32 0x4A435000#32)
      - Ideal.div (S : EReal) (Ideal.ofBits .f32 0x4A435000#32) * Ideal.div (S : EReal) (Ideal.ofBits .f32 0x4A435000#32))
      * Ideal.div (Ideal.ofBits .f32 0x4A435000#32) (Ideal.ofBits .f32 0x4A435000#32 - Ideal.ofBits .f32 0x3F800000#32) = _
  rw [c_n, c_one, ← EReal.coe_sub, div_coe_coe _ _ (by norm_num), div_coe_coe _ _ (by norm_num),
    div_coe_coe _ _ (by norm_num), ← EReal.coe_mul, ← EReal.coe_sub, ← EReal.coe_mul]
  rfl

theorem kvlK_coe (Sr Sr2 Sx Sx2 : ℝ) :
    kvlK (F := Ideal) (fun _ => ((Sr : ℝ) : EReal)) (fun _ => ((Sr2 : ℝ) : EReal)) (fun _ => ((Sx : ℝ) : EReal))
        (fun _ => ((Sx2 : ℝ) : EReal))
      = fun _ => (((vK Sr Sr2 + vK Sx Sx2) / 2 : ℝ) : EReal) := by
  funext i
  show Ideal.div (varK (F := Ideal) (fun _ => ((Sr : ℝ) : EReal)) (fun _ => ((Sr2 : ℝ) : EReal)) i
      + varK (F := Ideal) (fun _ => ((Sx : ℝ) : EReal)) (fun _ => ((Sx2 : ℝ) : EReal)) i)
      (Ideal.ofBits .f32 0x40000000#32) = _
  rw [varK_coe, varK_coe, c_two, ← EReal.coe_add, div_coe_coe _ _ (by norm_num)]

/-! ## The reference's side -/

/-- The column sums, from zero, of a real [3200000, 2] array. -/
theorem colSum_apply (g : TE2.Idx → ℝ) (j : Fin 2) :
    Host.reduceAdd (F := Ideal) (φ := .f32) (fun i => ((g i : ℝ) : EReal)) (constant T0 .f32 0x00000000#32) e_rP e_h0 (ix1 j)
      = ((∑ e : Fin 3200000, g (ix2 e j) : ℝ) : EReal) := by
  have hR : TE2.Reduces [0] T2 := by decide
  unfold Host.reduceAdd
  refine (Ideal.hostReduceAdd_single e_rP hR _ _ (ix1 j)).trans ?_
  rw [show (constant (F := Ideal) T0 .f32 0x00000000#32 (Shape.Idx.first e_h0)) = Ideal.ofBits .f32 0x00000000#32 from rfl,
    Ideal.ofBits_zero_f32, zero_add, Cert.ERealCoe.coe_sum]
  refine Finset.sum_congr rfl fun k _ => ?_
  exact congrArg (fun i => ((g i : ℝ) : EReal)) (funext fun ax => Fin.ext (by
    match ax with
    | ⟨0, _⟩ => rfl
    | ⟨1, _⟩ => rfl))

/-! The reference's stages, named; its variance is their composition. -/

def sR (ep : FVec Ideal TE2 .f32) : FVec Ideal T2 .f32 := Host.reduceAdd ep (constant T0 .f32 0x00000000#32) e_rP e_h0
def muR (ep : FVec Ideal TE2 .f32) : FVec Ideal T12 .f32 :=
  Host.divf (broadcastInDim T12 ![1] e_b2_12 (sR ep)) (broadcastInDim T12 ![] e_b0_12 cE0)
def cR (ep : FVec Ideal TE2 .f32) : FVec Ideal TE2 .f32 := subf ep (broadcastInDim TE2 ![0, 1] e_b12_P (muR ep))
def dR : FVec Ideal T0 .f32 := subf cE0 (sitofp .f32 (constantI T0 32 1#32))
def s2R (ep : FVec Ideal TE2 .f32) : FVec Ideal T2 .f32 :=
  Host.reduceAdd (mulf (cR ep) (cR ep)) (constant T0 .f32 0x00000000#32) e_rP e_h0
def qR (ep : FVec Ideal TE2 .f32) : FVec Ideal T2 .f32 := Host.divf (s2R ep) (broadcastInDim T2 ![] e_b0_2 dR)

theorem varR_eq (ep : FVec Ideal TE2 .f32) :
    varR ep = select (broadcastInDim T2 ![] e_b0_2 (cmpf .ogt dR (constant T0 .f32 0x00000000#32))) (qR ep)
      (broadcastInDim T2 ![] e_b0_2 (id (constant T0 .f32 0x7FC00000#32))) := rfl

/-- A real array as an array of extended reals. -/
abbrev up (f : TE2.Idx → ℝ) : FVec Ideal TE2 .f32 := fun i => ((f i : ℝ) : EReal)

/-- The sum of column j. -/
def colS (f : TE2.Idx → ℝ) (j : Fin 2) : ℝ := ∑ e : Fin 3200000, f (ix2 e j)

theorem sR_apply (f : TE2.Idx → ℝ) (j : Fin 2) : sR (up f) (ix1 j) = ((colS f j : ℝ) : EReal) := colSum_apply f j

theorem muR_apply (f : TE2.Idx → ℝ) (u : Fin 1) (j : Fin 2) :
    muR (up f) (ix2 u j) = ((colS f j / 3200000 : ℝ) : EReal) := by
  show Ideal.div (broadcastInDim T12 ![1] e_b2_12 (sR (up f)) (ix2 u j))
    (broadcastInDim T12 ![] e_b0_12 (cE0 (F := Ideal)) (ix2 u j)) = _
  rw [broadcastInDim_b_1b_apply, broadcastInDim_scalar_apply, sR_apply]
  show Ideal.div _ (Ideal.ofBits .f32 0x4A435000#32) = _
  rw [c_n, div_coe_coe _ _ (by norm_num)]

theorem cR_apply (f : TE2.Idx → ℝ) (e : Fin 3200000) (j : Fin 2) :
    cR (up f) (ix2 e j) = ((f (ix2 e j) - colS f j / 3200000 : ℝ) : EReal) := by
  show ((f (ix2 e j) : ℝ) : EReal) - broadcastInDim TE2 ![0, 1] e_b12_P (muR (up f)) (ix2 e j) = _
  rw [broadcastInDim_1b_ab_apply, muR_apply, ← EReal.coe_sub]

theorem dR_apply (i : T0.Idx) : dR i = ((3200000 - 1 : ℝ) : EReal) := by
  show Ideal.ofBits .f32 0x4A435000#32 - ((((1#32 : BitVec 32).toInt : ℤ) : ℝ) : EReal) = _
  rw [c_n, show (1#32 : BitVec 32).toInt = 1 from by decide, Int.cast_one, ← EReal.coe_sub]

theorem c2R_eq (f : TE2.Idx → ℝ) :
    mulf (cR (up f)) (cR (up f)) = up fun i => (f i - colS f (i 1) / 3200000) ^ 2 := by
  funext i
  obtain ⟨a, b, rfl⟩ : ∃ (a : Fin 3200000) (b : Fin 2), i = ix2 a b := ⟨i 0, i 1, eq_ix2 i⟩
  show cR (up f) (ix2 a b) * cR (up f) (ix2 a b) = (((f (ix2 a b) - colS f b / 3200000) ^ 2 : ℝ) : EReal)
  rw [cR_apply, ← EReal.coe_mul, ← pow_two]

theorem s2R_apply (f : TE2.Idx → ℝ) (j : Fin 2) :
    s2R (up f) (ix1 j) = ((∑ e : Fin 3200000, (f (ix2 e j) - colS f j / 3200000) ^ 2 : ℝ) : EReal) := by
  unfold s2R
  rw [c2R_eq]
  exact colSum_apply _ j

theorem qR_apply (f : TE2.Idx → ℝ) (j : Fin 2) :
    qR (up f) (ix1 j)
      = (((∑ e : Fin 3200000, (f (ix2 e j) - colS f j / 3200000) ^ 2) / (3200000 - 1) : ℝ) : EReal) := by
  show Ideal.div (s2R (up f) (ix1 j)) (broadcastInDim T2 ![] e_b0_2 dR (ix1 j)) = _
  rw [broadcastInDim_scalar_apply, dR_apply, s2R_apply, div_coe_coe _ _ (by norm_num)]

theorem guard_one : cmpf .ogt dR (constant (F := Ideal) T0 .f32 0x00000000#32) ix0 = 1#1 := by
  show Ideal.cmp .ogt (dR ix0) (Ideal.ofBits .f32 0x00000000#32) = 1#1
  rw [dR_apply, Ideal.ofBits_zero_f32]
  show BitVec.ofBool (decide ((0 : EReal) < ((3200000 - 1 : ℝ) : EReal))) = 1#1
  rw [decide_eq_true (EReal.coe_pos.mpr (by norm_num))]
  rfl

theorem varR_apply (f : TE2.Idx → ℝ) (j : Fin 2) :
    varR (up f) (ix1 j)
      = (((∑ e : Fin 3200000, (f (ix2 e j) - colS f j / 3200000) ^ 2) / (3200000 - 1) : ℝ) : EReal) := by
  rw [varR_eq]
  show Scalar.select (broadcastInDim T2 ![] e_b0_2 (cmpf .ogt dR (constant T0 .f32 0x00000000#32)) (ix1 j))
    (qR (up f) (ix1 j)) _ = _
  rw [broadcastInDim_scalar_apply, guard_one, select_one, qR_apply]

theorem kvlR_apply (f : TE2.Idx → ℝ) (i : T0.Idx) :
    kvlR (up f) i
      = ((((∑ e : Fin 3200000, (f (ix2 e 0) - colS f 0 / 3200000) ^ 2) / (3200000 - 1)
          + (∑ e : Fin 3200000, (f (ix2 e 1) - colS f 1 / 3200000) ^ 2) / (3200000 - 1)) / 2 : ℝ) : EReal) := by
  show Ideal.div (Host.reduceAdd (varR (up f)) (constant T0 .f32 0x00000000#32) e_r2 e_h0 i)
    (Ideal.ofBits .f32 0x40000000#32) = _
  unfold Host.reduceAdd
  rw [show FloatOps.hostReduceAdd [0] e_r2 .single (varR (up f))
        (constant (F := Ideal) T0 .f32 0x00000000#32 (Shape.Idx.first e_h0)) i
      = Ideal.ofBits .f32 0x00000000#32 + ∑ k : T2.Idx, varR (up f) k from
    Ideal.hostReduceAdd_total e_r2 (fun b => b.elim0) _ _ i]
  rw [Ideal.ofBits_zero_f32, zero_add,
    Fintype.sum_equiv (idxEquiv1 (n := 2)) (fun k : T2.Idx => varR (up f) k) (fun k : Fin 2 => varR (up f) (ix1 k))
      (fun k => congrArg (varR (up f)) (eq_ix1 k)),
    Fin.sum_univ_two, varR_apply, varR_apply, c_two, ← EReal.coe_add, div_coe_coe _ _ (by norm_num)]

/-! ## The two sides meet -/

/-- One column: the reference's centred form is the kernel's form of the column's sum and sum of squares. -/
theorem real_bridge (f : TE2.Idx → ℝ) (j : Fin 2) :
    (∑ e : Fin 3200000, (f (ix2 e j) - colS f j / 3200000) ^ 2) / (3200000 - 1)
      = vK (colS f j) (∑ e : Fin 3200000, f (ix2 e j) ^ 2) := by
  unfold vK colS
  exact var_identity (fun e : Fin 3200000 => f (ix2 e j)) 3200000 (by simp) (by norm_num) (by norm_num)

/-- The claim for an array given as an array of reals. -/
theorem kvl_bridge_up (f : TE2.Idx → ℝ) :
    kvlK (fun _ => ((∑ e, (rOf (up f) e).toReal : ℝ) : EReal)) (fun _ => ((∑ e, (rOf (up f) e).toReal ^ 2 : ℝ) : EReal))
        (fun _ => ((∑ e, (xOf (up f) e).toReal : ℝ) : EReal)) (fun _ => ((∑ e, (xOf (up f) e).toReal ^ 2 : ℝ) : EReal))
      = kvlR (up f) := by
  have hr : ∀ e : TE.Idx, (rOf (up f) e).toReal = f (ix2 (idxEquiv1 e) (0 : Fin 2)) := fun e => by
    obtain ⟨k, rfl⟩ : ∃ k : Fin 3200000, e = ix1 k := ⟨e 0, eq_ix1 e⟩
    rw [rOf_apply]; rfl
  have hx : ∀ e : TE.Idx, (xOf (up f) e).toReal = f (ix2 (idxEquiv1 e) (1 : Fin 2)) := fun e => by
    obtain ⟨k, rfl⟩ : ∃ k : Fin 3200000, e = ix1 k := ⟨e 0, eq_ix1 e⟩
    rw [xOf_apply]; rfl
  have e1 : (∑ e : TE.Idx, (rOf (up f) e).toReal) = colS f 0 :=
    Fintype.sum_equiv idxEquiv1 _ (fun k : Fin 3200000 => f (ix2 k (0 : Fin 2))) hr
  have e2 : (∑ e : TE.Idx, (rOf (up f) e).toReal ^ 2) = ∑ k : Fin 3200000, f (ix2 k (0 : Fin 2)) ^ 2 :=
    Fintype.sum_equiv idxEquiv1 _ (fun k : Fin 3200000 => f (ix2 k (0 : Fin 2)) ^ 2) fun e => by rw [hr]
  have e3 : (∑ e : TE.Idx, (xOf (up f) e).toReal) = colS f 1 :=
    Fintype.sum_equiv idxEquiv1 _ (fun k : Fin 3200000 => f (ix2 k (1 : Fin 2))) hx
  have e4 : (∑ e : TE.Idx, (xOf (up f) e).toReal ^ 2) = ∑ k : Fin 3200000, f (ix2 k (1 : Fin 2)) ^ 2 :=
    Fintype.sum_equiv idxEquiv1 _ (fun k : Fin 3200000 => f (ix2 k (1 : Fin 2)) ^ 2) fun e => by rw [hx]
  rw [e1, e2, e3, e4, kvlK_coe]
  funext i
  rw [kvlR_apply, real_bridge, real_bridge]

end Aux

theorem kvl_bridge (ep : FVec Ideal TE2 .f32) (hep : ∀ i, ∃ r : ℝ, ep i = (r : EReal)) :
    kvlK (fun _ => ((∑ e, (rOf ep e).toReal : ℝ) : EReal)) (fun _ => ((∑ e, (rOf ep e).toReal ^ 2 : ℝ) : EReal))
        (fun _ => ((∑ e, (xOf ep e).toReal : ℝ) : EReal)) (fun _ => ((∑ e, (xOf ep e).toReal ^ 2 : ℝ) : EReal))
      = kvlR ep := by
  obtain ⟨f, rfl⟩ : ∃ f : TE2.Idx → ℝ, ep = up f :=
    ⟨fun i => (ep i).toReal, funext fun i => by
      obtain ⟨r, hr⟩ := hep i
      show ep i = (((ep i).toReal : ℝ) : EReal)
      rw [hr, EReal.toReal_coe]⟩
  exact kvl_bridge_up f

end Cert.Var

end
-- ==== Proof.Bridge.lean ====
/-
  On the stated domain the kernel's function of the arguments is the reference's.

  Every edge endpoint is a node number, so the guarded gathers are the plain gathers and both programs read the same
  voltages. The current computed on the [25000, 128] layout and flattened is the current computed flat. The net currents
  may differ where a current is infinite, but their squares agree, and only the squares are read. The edge parameters
  are real, so the per-tile sums add up to the column sums and sums of squares, from which the kernel's variance
  formula gives the reference's variance.
-/
import proofs.«425219_j38010460570135_2_alg».proof.Proof.Reads
import proofs.«425219_j38010460570135_2_alg».proof.Proof.Current
import proofs.«425219_j38010460570135_2_alg».proof.Proof.NodeSum
import proofs.«425219_j38010460570135_2_alg».proof.Proof.Stats
import proofs.«425219_j38010460570135_2_alg».proof.Proof.Var

noncomputable section

namespace Cert.Bridge

open Idealize.ShloMosaic Cert.Spec

/-- The node term reads the net current only through its square. -/
theorem kclOf_nsK (ei : IVec TI 32) (cur : FVec Ideal TE .f32) :
    kclOf (F := Ideal) (nsK ei cur) = kclOf (nsR ei cur) := by
  unfold kclOf
  rw [Cert.NodeSum.nodeSum_sq]

theorem ker_eq_ref (nf : FVec Ideal TN4 .f32) (ei : IVec TI 32) (lg : FVec Ideal TE .f32) (ep : FVec Ideal TE2 .f32)
    (H : Dom nf ei lg ep) : kerOut nf ei lg ep = refOut nf ei lg ep := by
  unfold kerOut refOut
  rw [Cert.Reads.takeK_eq_gath _ _ (Cert.Reads.srcOf_rng ei H.rng),
    Cert.Reads.takeK_eq_gath _ _ (Cert.Reads.dstOf_rng ei H.rng),
    Cert.Current.current_eq, kclOf_nsK,
    Cert.Stats.sumK_statK _ (Cert.Reads.rOf_fin ep H.finP), Cert.Stats.sumK_statK_sq _ (Cert.Reads.rOf_fin ep H.finP),
    Cert.Stats.sumK_statK _ (Cert.Reads.xOf_fin ep H.finP), Cert.Stats.sumK_statK_sq _ (Cert.Reads.xOf_fin ep H.finP),
    Cert.Var.kvl_bridge ep H.finP]

end Cert.Bridge

end
-- ==== Proof.lean ====
/- The certificate of the edge-current kernel against its reference.

   Both programs compute, for a graph of 100000 nodes and 3200000 edges, the mean over nodes of the squared net edge
   current plus the mean of the two unbiased column variances of the edge parameters (Proof/Spec.lean says how each
   program arranges that). The claim is stated where every float input is a real number and every edge endpoint is a
   node number in [0, 100000): outside that range the kernel's guarded gather and the reference's clamped gather read
   different things.

   The three frames: the kernel's two are the generated frame certificates; the reference's is its run with the result
   dropped. The idealization rewrote nothing, so the preservation claim is trivial. For the value claim, the kernel
   program's run ends at the kernel's function of the arguments (Proof/KerHost.lean over Proof/KerBlocks.lean), the
   reference's at the reference's (Proof/RefRun.lean), and on the stated domain (Proof/PreDecode.lean) the two functions
   agree (Proof/Bridge.lean). -/
import proofs.«425219_j38010460570135_2_alg».proof.Defs
import proofs.«425219_j38010460570135_2_alg».proof.Proof.Gen.Kernel
import proofs.«425219_j38010460570135_2_alg».proof.Proof.Gen.Kernel.Skeleton
import proofs.«425219_j38010460570135_2_alg».proof.Proof.Gen.Kernel.Launch
import proofs.«425219_j38010460570135_2_alg».proof.Proof.Gen.Kernel.Points
import proofs.«425219_j38010460570135_2_alg».proof.Proof.Gen.Kernel.Frame
import proofs.«425219_j38010460570135_2_alg».proof.Proof.Gen.KernelIdeal
import proofs.«425219_j38010460570135_2_alg».proof.Proof.Gen.KernelIdeal.Skeleton
import proofs.«425219_j38010460570135_2_alg».proof.Proof.Gen.KernelIdeal.Launch
import proofs.«425219_j38010460570135_2_alg».proof.Proof.Gen.KernelIdeal.Points
import proofs.«425219_j38010460570135_2_alg».proof.Proof.Gen.KernelIdeal.Frame
import proofs.«425219_j38010460570135_2_alg».proof.Proof.Gen.ReferenceIdeal
import proofs.«425219_j38010460570135_2_alg».proof.Proof.Gen.Pre_finite_inputs
import proofs.«425219_j38010460570135_2_alg».proof.Proof.KerHost
import proofs.«425219_j38010460570135_2_alg».proof.Proof.RefRun
import proofs.«425219_j38010460570135_2_alg».proof.Proof.PreDecode
import proofs.«425219_j38010460570135_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts)
    (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (Cert.ReferenceIdeal.Run.run m ρ)

/-- From memories that agree on the arguments both programs end at one value: the kernel's function of the arguments,
    which on the stated domain is the reference's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Host.run m ρ, ?_⟩
  refine (θ_run Cert.ReferenceIdeal.defs _ _).mono (fun _ h c => ⟨(h c).1.trans ?_, (h c).2⟩)
    (Cert.ReferenceIdeal.Run.run m' ρ')
  rw [(hagree c).1, (hagree c).2.1, (hagree c).2.2.1, (hagree c).2.2.2]
  exact (Cert.Bridge.ker_eq_ref _ _ _ _ (Cert.PreDecode.dom_of_pre _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
